-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S1x512x64 : Shape := ⟨3, ![1, 512, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S1x512x64 : S_.BroadcastsInDim S1x512x64 (![] : Fin 0 → Fin S1x512x64.rank)
  reducesTo_S1x512x64_S_d0_1_2 : S1x512x64.ReducesTo [0, 1, 2] S_

variable [Facts]

def fn {F : FTy → Type} [FloatOps F] (main_arg0 : FVec F S16x512x64x64 .f32) (main_arg1 : FVec F S1x512x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S1x512x64 .f32 := Host.absf main_arg1
  let main_cst_0 : FVec F S_ .f32 := constant S_ .f32 0x7F800000#32
  let main_v5 : FVec F S1x512x64 .f32 := broadcastInDim S1x512x64 ![] bcast_S_S1x512x64 main_cst_0
  let main_v6 : IVec S1x512x64 1 := cmpf .olt main_v4 main_v5
  let main_c_1 : IVec S_ 1 := constantI S_ 1 1#1
  let main_v7 : IVec S_ 1 := (fun x v => Host.reduce IntOp.andi x v reducesTo_S1x512x64_S_d0_1_2 h_S_) main_v6 main_c_1
  let main_v8 : IVec S_ 1 := andi main_v3 main_v7
  main_v8
-- ==== Kernel.lean ====
abbrev S16x512x64x64 : Shape := ⟨4, ![16, 512, 64, 64]⟩
abbrev S1x512x64 : Shape := ⟨3, ![1, 512, 64]⟩
abbrev S16x512x4096 : Shape := ⟨3, ![16, 512, 4096]⟩
abbrev S1x512x4096 : Shape := ⟨3, ![1, 512, 4096]⟩
abbrev S512x4096 : Shape := ⟨2, ![512, 4096]⟩
abbrev S512x64 : Shape := ⟨2, ![512, 64]⟩
abbrev S64 : Shape := ⟨1, ![64]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x512x64x64, .f32⟩
  | .hbm, ⟨1, _⟩ => ⟨S1x512x64, .f32⟩
  | .hbm, ⟨2, _⟩ => ⟨S16x512x4096, .f32⟩
  | .hbm, ⟨3, _⟩ => ⟨S16x512x4096, .f32⟩
  | .hbm, ⟨4, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x64, .f32⟩
  | .local _ .vmem, ⟨3, _⟩ => ⟨S1x512x4096, .f32⟩
  | .local _ .vmem, ⟨4, _⟩ => ⟨S1x512x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x64x64_S16x512x4096 : S16x512x64x64.ShapeCasts S16x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  reduces_S512x64_S64 : S512x64.Reduces [0] S64
  shapeCasts_S64_S1x64 : S64.ShapeCasts S1x64
  broadcasts_S1x64_S512x64 : S1x64.Broadcasts S512x64
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  broadcasts_S1x64_S4096x64 : S1x64.Broadcasts S4096x64
  shapeCasts_S512x4096_S1x512x4096 : S512x4096.ShapeCasts S1x512x4096
  shapeCasts_S16x512x4096_S16x512x64x64 : S16x512x4096.ShapeCasts S16x512x64x64
  dot_S512x4096_S512x64_S4096x64_0_0_1_1_n_n_wf : DotDims.WF S512x4096 S512x64 S4096x64 [0] [0] [1] [1] [] []
  dot_S512x4096_S4096x64_S512x64_1_0_0_1_n_n_wf : DotDims.WF S512x4096 S4096x64 S512x64 [1] [0] [0] [1] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S1x512x64.size a
  hwx0_1 : ∀ i : grid0.Coords, EltTy.bits .f32 = 32 ∨ (Rect.block (s := S1x512x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S16x512x4096.size a
  hwx0_2 : ∀ i : grid0.Coords, EltTy.bits .f32 = 32 ∨ (Rect.block (s := S16x512x4096) S1x512x4096.size (cc0_transform_2 i) (hinb0_2 i)).WholeWords (EltTy.packing .f32)

variable [Facts₀]

def dot_S512x4096_S512x64_S4096x64_0_0_1_1_n_n : DotDims S512x4096 S512x64 S4096x64 where
  lhsContracting := [0]
  rhsContracting := [0]
  lhsNonContracting := [1]
  rhsNonContracting := [1]
  lhsBatch := []
  rhsBatch := []
  wf := dot_S512x4096_S512x64_S4096x64_0_0_1_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S1x512x64 : Shape := ⟨3, ![1, 512, 64]⟩
abbrev S16x512x4096 : Shape := ⟨3, ![16, 512, 4096]⟩
abbrev S_ : Shape := ⟨0, ![]⟩
abbrev S1x64 : Shape := ⟨2, ![1, 64]⟩
abbrev S1x1x64 : Shape := ⟨3, ![1, 1, 64]⟩
abbrev S16x512x64 : Shape := ⟨3, ![16, 512, 64]⟩
abbrev S16x4096x64 : Shape := ⟨3, ![16, 4096, 64]⟩
abbrev S16x4096 : Shape := ⟨2, ![16, 4096]⟩
abbrev S16x4096x1 : Shape := ⟨3, ![16, 4096, 1]⟩
abbrev S16x64 : Shape := ⟨2, ![16, 64]⟩
abbrev S16x1x64 : Shape := ⟨3, ![16, 1, 64]⟩

abbrev nBuf : Space → Nat
  | .hbm => 118
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S1x512x64, .f32⟩
  | .hbm, ⟨2, _⟩ => ⟨S16x512x4096, .f32⟩
  | .hbm, ⟨3, _⟩ => ⟨S1x512x64, .f32⟩
  | .hbm, ⟨4, _⟩ => ⟨S_, .f32⟩
  | .hbm, ⟨5, _⟩ => ⟨S1x64, .f32⟩
  | .hbm, ⟨6, _⟩ => ⟨S1x1x64, .f32⟩
  | .hbm, ⟨7, _⟩ => ⟨S1x1x64, .f32⟩
  | .hbm, ⟨8, _⟩ => ⟨S_, .f32⟩
  | .hbm, ⟨9, _⟩ => ⟨S1x1x64, .f32⟩
  | .hbm, ⟨10, _⟩ => ⟨S1x1x64, .f32⟩
  | .hbm, ⟨11, _⟩ => ⟨S1x512x64, .f32⟩
  | .hbm, ⟨12, _⟩ => ⟨S1x512x64, .f32⟩
  | .hbm, ⟨13, _⟩ => ⟨S16x512x64, .f32⟩
  | .hbm, ⟨14, _⟩ => ⟨S16x4096x64, .f32⟩
  | .hbm, ⟨15, _⟩ => ⟨S_, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096x1, .f32⟩
  | .hbm, ⟨21, _⟩ => ⟨S16x4096x64, .f32⟩
  | .hbm, ⟨22, _⟩ => ⟨S16x4096x64, .f32⟩
  | .hbm, ⟨23, _⟩ => ⟨S16x4096x64, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x64, .f32⟩
  | .hbm, ⟨28, _⟩ => ⟨S16x4096x64, .f32⟩
  | .hbm, ⟨29, _⟩ => ⟨S_, .f32⟩
  | .hbm, ⟨30, _⟩ => ⟨S16x64, .f32⟩
  | .hbm, ⟨31, _⟩ => ⟨S16x1x64, .f32⟩
  | .hbm, ⟨32, _⟩ => ⟨S_, .f32⟩
  | .hbm, ⟨33, _⟩ => ⟨S16x1x64, .f32⟩
  | .hbm, ⟨34, _⟩ => ⟨S16x1x64, .f32⟩
  | .hbm, ⟨35, _⟩ => ⟨S16x4096x64, .f32⟩
  | .hbm, ⟨36, _⟩ => ⟨S16x4096x64, .f32⟩
  | .hbm, ⟨37, _⟩ => ⟨S16x512x64, .f32⟩
  | .hbm, ⟨38, _⟩ => ⟨S16x512x64, .f32⟩
  | .hbm, ⟨39, _⟩ => ⟨S_, .f32⟩
  | .hbm, ⟨40, _⟩ => ⟨S16x64, .f32⟩
  | .hbm, ⟨41, _⟩ => ⟨S16x1x64, .f32⟩
  | .hbm, ⟨42, _⟩ => ⟨S16x1x64, .f32⟩
  | .hbm, ⟨43, _⟩ => ⟨S_, .f32⟩
  | .hbm, ⟨44, _⟩ => ⟨S16x1x64, .f32⟩
  | .hbm, ⟨45, _⟩ => ⟨S16x1x64, .f32⟩
  | .hbm, ⟨46, _⟩ => ⟨S16x512x64, .f32⟩
  | .hbm, ⟨47, _⟩ => ⟨S16x512x64, .f32⟩
  | .hbm, ⟨48, _⟩ => ⟨S16x4096x64, .f32⟩
  | .hbm, ⟨49, _⟩ => ⟨S_, .f32⟩
  | .hbm, ⟨50, _⟩ => ⟨S16x4096, .f32⟩
  | .hbm, ⟨51, _⟩ => ⟨S_, .f32⟩
  | .hbm, ⟨52, _⟩ => ⟨S16x4096, .f32⟩
  | .hbm, ⟨53, _⟩ => ⟨S16x4096, .f32⟩
  | .hbm, ⟨54, _⟩ => ⟨S16x4096x1, .f32⟩
  | .hbm, ⟨55, _⟩ => ⟨S16x4096x64, .f32⟩
  | .hbm, ⟨56, _⟩ => ⟨S16x4096x64, .f32⟩
  | .hbm, ⟨57, _⟩ => ⟨S16x4096x64, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S16x4096x64, .f32⟩
  | .hbm, ⟨62, _⟩ => ⟨S16x4096x64, .f32⟩
  | .hbm, ⟨63, _⟩ => ⟨S_, .f32⟩
  | .hbm, ⟨64, _⟩ => ⟨S16x64, .f32⟩
  | .hbm, ⟨65, _⟩ => ⟨S16x1x64, .f32⟩
  | .hbm, ⟨66, _⟩ => ⟨S_, .f32⟩
  | .hbm, ⟨67, _⟩ => ⟨S16x1x64, .f32⟩
  | .hbm, ⟨68, _⟩ => ⟨S16x1x64, .f32⟩
  | .hbm, ⟨69, _⟩ => ⟨S16x4096x64, .f32⟩
  | .hbm, ⟨70, _⟩ => ⟨S16x4096x64, .f32⟩
  | .hbm, ⟨71, _⟩ => ⟨S16x512x64, .f32⟩
  | .hbm, ⟨72, _⟩ => ⟨S16x512x64, .f32⟩
  | .hbm, ⟨73, _⟩ => ⟨S_, .f32⟩
  | .hbm, ⟨74, _⟩ => ⟨S16x64, .f32⟩
  | .hbm, ⟨75, _⟩ => ⟨S16x1x64, .f32⟩
  | .hbm, ⟨76, _⟩ => ⟨S16x1x64, .f32⟩
  | .hbm, ⟨77, _⟩ => ⟨S_, .f32⟩
  | .hbm, ⟨78, _⟩ => ⟨S16x1x64, .f32⟩
  | .hbm, ⟨79, _⟩ => ⟨S16x1x64, .f32⟩
  | .hbm, ⟨80, _⟩ => ⟨S16x512x64, .f32⟩
  | .hbm, ⟨81, _⟩ => ⟨S16x512x64, .f32⟩
  | .hbm, ⟨82, _⟩ => ⟨S16x4096x64, .f32⟩
  | .hbm, ⟨83, _⟩ => ⟨S_, .f32⟩
  | .hbm, ⟨84, _⟩ => ⟨S16x4096, .f32⟩
  | .hbm, ⟨85, _⟩ => ⟨S_, .f32⟩
  | .hbm, ⟨86, _⟩ => ⟨S16x4096, .f32⟩
  | .hbm, ⟨87, _⟩ => ⟨S16x4096, .f32⟩
  | .hbm, ⟨88, _⟩ => ⟨S16x4096x1, .f32⟩
  | .hbm, ⟨89, _⟩ => ⟨S16x4096x64, .f32⟩
  | .hbm, ⟨90, _⟩ => ⟨S16x4096x64, .f32⟩
  | .hbm, ⟨91, _⟩ => ⟨S16x4096x64, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x64, .f32⟩
  | .hbm, ⟨96, _⟩ => ⟨S16x4096x64, .f32⟩
  | .hbm, ⟨97, _⟩ => ⟨S_, .f32⟩
  | .hbm, ⟨98, _⟩ => ⟨S16x64, .f32⟩
  | .hbm, ⟨99, _⟩ => ⟨S16x1x64, .f32⟩
  | .hbm, ⟨100, _⟩ => ⟨S_, .f32⟩
  | .hbm, ⟨101, _⟩ => ⟨S16x1x64, .f32⟩
  | .hbm, ⟨102, _⟩ => ⟨S16x1x64, .f32⟩
  | .hbm, ⟨103, _⟩ => ⟨S16x4096x64, .f32⟩
  | .hbm, ⟨104, _⟩ => ⟨S16x4096x64, .f32⟩
  | .hbm, ⟨105, _⟩ => ⟨S16x512x64, .f32⟩
  | .hbm, ⟨106, _⟩ => ⟨S16x512x64, .f32⟩
  | .hbm, ⟨107, _⟩ => ⟨S_, .f32⟩
  | .hbm, ⟨108, _⟩ => ⟨S16x64, .f32⟩
  | .hbm, ⟨109, _⟩ => ⟨S16x1x64, .f32⟩
  | .hbm, ⟨110, _⟩ => ⟨S16x1x64, .f32⟩
  | .hbm, ⟨111, _⟩ => ⟨S_, .f32⟩
  | .hbm, ⟨112, _⟩ => ⟨S16x1x64, .f32⟩
  | .hbm, ⟨113, _⟩ => ⟨S16x1x64, .f32⟩
  | .hbm, ⟨114, _⟩ => ⟨S16x512x64, .f32⟩
  | .hbm, ⟨115, _⟩ => ⟨S16x512x64, .f32⟩
  | .hbm, ⟨116, _⟩ => ⟨S16x512x4096, .f32⟩
  | .hbm, ⟨117, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_v0 : Ref sig .tc := ⟨.hbm, 72, rfl⟩
abbrev main_call2_cst : Ref sig .tc := ⟨.hbm, 73, rfl⟩
abbrev main_call2_v1 : Ref sig .tc := ⟨.hbm, 74, rfl⟩
abbrev main_call2_v2 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_v0 : Ref sig .tc := ⟨.hbm, 106, rfl⟩
abbrev main_call3_cst : Ref sig .tc := ⟨.hbm, 107, rfl⟩
abbrev main_call3_v1 : Ref sig .tc := ⟨.hbm, 108, rfl⟩
abbrev main_call3_v2 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S1x512x64_S1x64_d1 : S1x512x64.ReducesTo [1] S1x64
  h_S_ : 0 < S_.numel
  bcast_S1x64_S1x1x64_0_2 : S1x64.BroadcastsInDim S1x1x64 (![0, 2] : Fin 2 → Fin S1x1x64.rank)
  bcast_S_S1x1x64 : S_.BroadcastsInDim S1x1x64 (![] : Fin 0 → Fin S1x1x64.rank)
  bcast_S1x1x64_S1x512x64_0_1_2 : S1x1x64.BroadcastsInDim S1x512x64 (![0, 1, 2] : Fin 3 → Fin S1x512x64.rank)
  bcast_S1x512x64_S16x512x64_0_1_2 : S1x512x64.BroadcastsInDim S16x512x64 (![0, 1, 2] : Fin 3 → Fin S16x512x64.rank)
  reducesTo_S16x4096x64_S16x4096_d2 : S16x4096x64.ReducesTo [2] S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x64_0_1_2 : S16x4096x1.BroadcastsInDim S16x4096x64 (![0, 1, 2] : Fin 3 → Fin S16x4096x64.rank)
  reducesTo_S16x4096x64_S16x64_d1 : S16x4096x64.ReducesTo [1] S16x64
  bcast_S16x64_S16x1x64_0_2 : S16x64.BroadcastsInDim S16x1x64 (![0, 2] : Fin 2 → Fin S16x1x64.rank)
  bcast_S_S16x1x64 : S_.BroadcastsInDim S16x1x64 (![] : Fin 0 → Fin S16x1x64.rank)
  bcast_S16x1x64_S16x4096x64_0_1_2 : S16x1x64.BroadcastsInDim S16x4096x64 (![0, 1, 2] : Fin 3 → Fin S16x4096x64.rank)
  reducesTo_S16x512x64_S16x64_d1 : S16x512x64.ReducesTo [1] S16x64
  bcast_S16x1x64_S16x512x64_0_1_2 : S16x1x64.BroadcastsInDim S16x512x64 (![0, 1, 2] : Fin 3 → Fin S16x512x64.rank)
  shapeCasts_S16x512x4096_S16x512x64x64 : S16x512x4096.ShapeCasts S16x512x64x64
  dot_S16x512x4096_S16x512x64_S16x4096x64_1_1_2_2_0_0_wf : DotDims.WF S16x512x4096 S16x512x64 S16x4096x64 [1] [1] [2] [2] [0] [0]
  dot_S16x512x4096_S16x4096x64_S16x512x64_2_1_1_2_0_0_wf : DotDims.WF S16x512x4096 S16x4096x64 S16x512x64 [2] [1] [1] [2] [0] [0]
  dot_S16x512x64_S16x4096x64_S16x512x4096_2_2_1_1_0_0_wf : DotDims.WF S16x512x64 S16x4096x64 S16x512x4096 [2] [2] [1] [1] [0] [0]

variable [Facts₀]

def dot_S16x512x4096_S16x512x64_S16x4096x64_1_1_2_2_0_0 : DotDims S16x512x4096 S16x512x64 S16x4096x64 where
  lhsContracting := [1]
  rhsContracting := [1]
  lhsNonContracting := [2]
  rhsNonContracting := [2]
  lhsBatch := [0]
  rhsBatch := [0]
  wf := dot_S16x512x4096_S16x512x64_S16x4096x64_1_1_2_2_0_0_wf
def dot_S16x512x4096_S16x4096x64_S16x512x64_2_1_1_2_0_0 : DotDims S16x512x4096 S16x4096x64 S16x512x64 where
  lhsContracting := [2]
  rhsContracting := [1]
  lhsNonContracting := [1]
  rhsNonContracting := [2]
  lhsBatch := [0]
  rhsBatch := [0]
  wf := dot_S16x512x4096_S16x4096x64_S16x512x64_2_1_1_2_0_0_wf
def dot_S16x512x64_S16x4096x64_S16x512x4096_2_2_1_1_0_0 : DotDims S16x512x64 S16x4096x64 S16x512x4096 where
  lhsContracting := [2]
  rhsContracting := [2]
  lhsNonContracting := [1]
  rhsNonContracting := [1]
  lhsBatch := [0]
  rhsBatch := [0]
  wf := dot_S16x512x64_S16x4096x64_S16x512x4096_2_2_1_1_0_0_wf

class Facts : Prop extends Facts₀ where

variable [Facts]
-- ==== Proof.KerStages.lean ====
/-
  The kernel body's arithmetic cut into the operations of one EM iteration, as functions of whole vectors at any float
  family: the column-wise l2 normalisation of a [512, 64] basis, the row softmax of the [4096, 64] scores f^T b, the
  column-wise l1 normalisation followed by the update f a, and the reconstruction b a^T. One grid point's output block is
  three iterations from the normalised initial basis, then the reconstruction from the last basis and the last softmax.
-/
import proofs.«108734_j4166118277546_1_alg».proof.Proof.Gen.KernelIdeal.Skeleton
import Idealize.ShloMosaic.Lib.ValueIdx

noncomputable section

namespace Cert.KernelIdeal.Stage

open Idealize.ShloMosaic Idealize.ShloMosaic.ValueIdx Cert.KernelIdeal Cert.KernelIdeal.Gen

variable {F : FTy → Type} [FloatOps F]

/-- Each column of a [512, 64] matrix divided by (eps + its Euclidean norm). -/
def kNorm (x : FVec F S512x64 .f32) : FVec F S512x64 .f32 :=
  divf x (broadcastTo S512x64 (addf (broadcast S1x64 (Scalar.ofBits .f32 0x358637BD#32))
    (sqrt (shapeCast S1x64 (multiReduction .add [0] S64 (mulf x x) 0x00000000#32 reduces_S512x64_S64 (.inl rfl) rfl) shapeCasts_S64_S1x64)))
    broadcasts_S1x64_S512x64)

/-- The softmax of each row of a [4096, 64] matrix (the row's maximum subtracted first). -/
def kSoftmax (s : FVec F S4096x64 .f32) : FVec F S4096x64 .f32 :=
  divf (exp (subf s (broadcastTo S4096x64 (shapeCast S4096x1 (maximumf (broadcast S4096 (Scalar.ofBits .f32 0xFF800000#32))
      (multiReduction .maximumf [1] S4096 s 0xFF800000#32 reduces_S4096x64_S4096 (.inl rfl) rfl)) shapeCasts_S4096_S4096x1) broadcasts_S4096x1_S4096x64)))
    (broadcastTo S4096x64 (shapeCast S4096x1 (multiReduction .add [1] S4096
      (exp (subf s (broadcastTo S4096x64 (shapeCast S4096x1 (maximumf (broadcast S4096 (Scalar.ofBits .f32 0xFF800000#32))
        (multiReduction .maximumf [1] S4096 s 0xFF800000#32 reduces_S4096x64_S4096 (.inl rfl) rfl)) shapeCasts_S4096_S4096x1) broadcasts_S4096x1_S4096x64)))
      0x00000000#32 reduces_S4096x64_S4096 (.inl rfl) rfl) shapeCasts_S4096_S4096x1) broadcasts_S4096x1_S4096x64)

/-- The attention of one iteration: the row softmax of f^T b. -/
def kAttn (f : FVec F S512x4096 .bf16) (b : FVec F S512x64 .f32) : FVec F S4096x64 .f32 :=
  kSoftmax (matmul dot_S512x4096_S512x64_S4096x64_0_0_1_1_n_n none f (truncf .bf16 b bitsLt_bf16_f32) (constant S4096x64 .f32 0x00000000#32))

/-- Each column of a [4096, 64] matrix divided by (eps + its sum). -/
def kL1 (a : FVec F S4096x64 .f32) : FVec F S4096x64 .f32 :=
  divf a (broadcastTo S4096x64 (addf (broadcast S1x64 (Scalar.ofBits .f32 0x358637BD#32))
    (shapeCast S1x64 (multiReduction .add [0] S64 a 0x00000000#32 reduces_S4096x64_S64 (.inl rfl) rfl) shapeCasts_S64_S1x64))
    broadcasts_S1x64_S4096x64)

/-- The basis update: f times the column-normalised attention. -/
def kUpd (f : FVec F S512x4096 .bf16) (a : FVec F S4096x64 .f32) : FVec F S512x64 .f32 :=
  matmul dot_S512x4096_S4096x64_S512x64_1_0_0_1_n_n none f (truncf .bf16 (kL1 a) bitsLt_bf16_f32) (constant S512x64 .f32 0x00000000#32)

/-- The reconstruction b a^T. -/
def kRecon (b : FVec F S512x64 .f32) (a : FVec F S4096x64 .f32) : FVec F S512x4096 .f32 :=
  matmul dot_S512x64_S4096x64_S512x4096_1_1_0_0_n_n none (truncf .bf16 b bitsLt_bf16_f32) (truncf .bf16 a bitsLt_bf16_f32) (constant S512x4096 .f32 0x00000000#32)

/-- One EM iteration on the basis. -/
def kStage (f : FVec F S512x4096 .bf16) (b : FVec F S512x64 .f32) : FVec F S512x64 .f32 :=
  kNorm (kUpd f (kAttn f b))

/-- The features of one batch element as the body reads them. -/
def kFeat (x0 : Vec F S1x512x4096 .f32) : FVec F S512x4096 .bf16 :=
  truncf .bf16 (shapeCast S512x4096 x0 shapeCasts_S1x512x4096_S512x4096) bitsLt_bf16_f32

/-- The basis before the last iteration: the normalised initial basis after two iterations. -/
def kB3 (x0 : Vec F S1x512x4096 .f32) (x1 : Vec F S1x512x64 .f32) : FVec F S512x64 .f32 :=
  kStage (kFeat x0) (kStage (kFeat x0) (kNorm (shapeCast S512x64 x1 shapeCasts_S1x512x64_S512x64)))

/-- What one grid point stores: the reconstruction from the basis after the third iteration and the third softmax. -/
def kBlock (x0 : Vec F S1x512x4096 .f32) (x1 : Vec F S1x512x64 .f32) : Vec F S1x512x4096 .f32 :=
  shapeCast S1x512x4096 (kRecon (kStage (kFeat x0) (kB3 x0 x1)) (kAttn (kFeat x0) (kB3 x0 x1))) shapeCasts_S512x4096_S1x512x4096

/-- The stored value of the body, payload by payload, is that block. -/
theorem pay_eq_kBlock (x0 : Vec F S1x512x4096 .f32) (x1 : Vec F S1x512x64 .f32) :
    k0_pay1 (k0_pay2 x0) (k0_pay4 (k0_pay2 x0) (k0_pay3 x0 x1)) (k0_pay5 (k0_pay2 x0) (k0_pay3 x0 x1)) (k0_pay6 (F := F))
      = kBlock x0 x1 := rfl

/-- The output array of the region as one function of the arrays it reads: index (t, c, n) is what grid point t stores
    at (0, c, n), computed from batch element t of the features and from the whole basis. -/
def kArr (Y : FVec F S16x512x4096 .f32) (Bs : FVec F S1x512x64 .f32) : FVec F S16x512x4096 .f32 :=
  fun i => kBlock (fun y => Y (ix3 (i 0) (y 1) (y 2))) Bs (ix3 (0 : Fin 1) (i 1) (i 2))

/-- The kernel program's result as one function of its two arguments: the two spatial axes merged, the region, and
    the axes split again. -/
def kResult (X : FVec F S16x512x64x64 .f32) (Bs : FVec F S1x512x64 .f32) : FVec F S16x512x64x64 .f32 :=
  shapeCast S16x512x64x64 (kArr (shapeCast S16x512x4096 X shapeCasts_S16x512x64x64_S16x512x4096) Bs) shapeCasts_S16x512x4096_S16x512x64x64

end Cert.KernelIdeal.Stage

end
-- ==== Proof.KerValue.lean ====
/-
  The kernel program's value. The program merges the two spatial axes of its first argument, runs the region over the
  sixteen batch elements, and splits the axes of the region's output again. Grid point t reads batch element t of the
  merged features and the whole initial basis, and stores one block: three EM iterations and the reconstruction. So the
  region's output array is one function of the arrays it reads (Stage.kArr): index (t, c, n) is what point t stores at
  (0, c, n). Proved here: what point t writes back is block t of that function (the input blocks are the arrays read at
  the rows the output's block names), the sixteen blocks cover the output array, the host lines before and after the
  region are the two reshapes, and hence every run of the program ends with the result buffer at Stage.kResult of the two
  arguments and the arguments as they were.
-/
import proofs.«108734_j4166118277546_1_alg».proof.Proof.KerStages
import proofs.«108734_j4166118277546_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.KerValue

open Cert.KernelIdeal Cert.KernelIdeal.Gen Cert.KernelIdeal.Stage
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The zero offsets of a whole-block rectangle, as a function. -/
theorem hz3 : (![0, 0, 0] : Fin 3 → Nat) = fun _ => 0 := funext fun a => by fin_cases a <;> rfl

/-- The index maps over the grid: the features' and the output's block index is (t, 0, 0), the basis's is (0, 0, 0). -/
theorem idx_facts : ∀ t : Fin cfg0.N, win0_0.index t (0 : Fin 3) = t.val
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- One block of the region's output function: the block computed from batch element (i 0) of the features, read at the
    block's own (0, i 1, i 2). -/
theorem kBlock_eq_kArr (Y : FVec F S16x512x4096 .f32) (Bs : FVec F S1x512x64 .f32)
    (x0 : Vec F S1x512x4096 .f32) (x1 : Vec F S1x512x64 .f32) (j : S1x512x4096.Idx) (i : S16x512x4096.Idx)
    (hx0 : ∀ y : S1x512x4096.Idx, x0 y = Y (ix3 (i 0) (y 1) (y 2))) (hx1 : x1 = Bs)
    (h1 : (i 1).val = (j 1).val) (h2 : (i 2).val = (j 2).val) :
    kBlock x0 x1 j = kArr Y Bs i := by
  subst hx1
  have e : x0 = fun y => Y (ix3 (i 0) (y 1) (y 2)) := funext hx0
  subst e
  unfold kArr
  refine congrArg (kBlock _ x1) ?_
  funext a
  match a with
  | ⟨0, _⟩ => exact Fin.ext (by have h : (j 0).val < 1 := (j 0).isLt; show (j 0).val = 0; omega)
  | ⟨1, _⟩ => exact Fin.ext h1.symm
  | ⟨2, _⟩ => exact Fin.ext h2.symm

/-- What point t writes back is block t of the region's output function of the arrays as the region finds them. -/
theorem flushed_eq (c : Dev nD) (t : Fin cfg0.N) :
    (dats m 0 c).flushed 2 t = ((cfg0.win 2).blk t).view.read (Elt F) (kArr (V m c main_v0) (V m c main_arg1)) := by
  show (cfg0.win 2).cut (grid0.coords t) ((dats m 0 c).after 2 t) = _
  rw [after0_2]
  unfold out0_2
  rw [View.canon_unit_zero hz3]
  simp only [View.ld_unit_zero (S := S1x512x4096) hz3, View.ld_unit_zero (S := S1x512x64) hz3]
  rw [pay_eq_kBlock]
  obtain ⟨e00, e01, e02, e10, e11, e12, e20, e21, e22⟩ := idx_facts t
  funext j
  refine kBlock_eq_kArr (V m c main_v0) (V m c main_arg1) (iblk m c 0 t) (iblk m c 1 t) j (((cfg0.win 2).blk t).view.emb j) ?_ ?_ ?_ ?_
  · intro y
    show V m c main_v0 (((cfg0.win 0).blk t).view.emb y) = V m c main_v0 _
    refine congrArg (V m c main_v0) ?_
    funext a; apply Fin.ext
    match a with
    | ⟨0, _⟩ =>
      show win0_0.index t (0 : Fin 3) * 1 + 1 * (y 0).val = win0_2.index t (0 : Fin 3) * 1 + 1 * (j 0).val
      have hy : (y 0).val < 1 := (y 0).isLt
      have hj : (j 0).val < 1 := (j 0).isLt
      omega
    | ⟨1, _⟩ =>
      show win0_0.index t (1 : Fin 3) * 512 + 1 * (y 1).val = (y 1).val
      omega
    | ⟨2, _⟩ =>
      show win0_0.index t (2 : Fin 3) * 4096 + 1 * (y 2).val = (y 2).val
      omega
  · funext y
    show V m c main_arg1 (((cfg0.win 1).blk t).view.emb y) = V m c main_arg1 y
    refine congrArg (V m c main_arg1) ?_
    funext a; apply Fin.ext
    match a with
    | ⟨0, _⟩ => show win0_1.index t (0 : Fin 3) * 1 + 1 * (y 0).val = (y 0).val; omega
    | ⟨1, _⟩ => show win0_1.index t (1 : Fin 3) * 512 + 1 * (y 1).val = (y 1).val; omega
    | ⟨2, _⟩ => show win0_1.index t (2 : Fin 3) * 64 + 1 * (y 2).val = (y 2).val; omega
  · show win0_2.index t (1 : Fin 3) * 512 + 1 * (j 1).val = (j 1).val; omega
  · show win0_2.index t (2 : Fin 3) * 4096 + 1 * (j 2).val = (j 2).val; omega

/-- An index of the output array is in point t's block iff each coordinate is in the block's range on its axis. -/
theorem mem_blk (t : Fin cfg0.N) (i : S16x512x4096.Idx) :
    i ∈ ((cfg0.win 2).blk t).view.set ↔ ∀ a : Fin 3, win0_2.index t a * S1x512x4096.size a ≤ (i a).val ∧ (i a).val < win0_2.index t a * S1x512x4096.size a + S1x512x4096.size a := by
  show i ∈ ((View.whole main_v1).slice (win0_2.rect t)).set ↔ _
  rw [View.set_slice_whole, Rect.mem_set_unit]
  exact Iff.rfl

/-- Every index of the output array is in the block of the point its first coordinate names. -/
theorem cover (i : S16x512x4096.Idx) : ∃ t : Fin cfg0.N, (cfg0.win 2).flush t = true ∧ i ∈ ((cfg0.win 2).blk t).view.set := by
  have h0 : (i 0).val < 16 := (i 0).isLt
  have h1 : (i 1).val < 512 := (i 1).isLt
  have h2 : (i 2).val < 4096 := (i 2).isLt
  have hN : cfg0.N = 16 := N_0
  obtain ⟨t, ht⟩ : ∃ t : Fin cfg0.N, t.val = (i 0).val := ⟨⟨(i 0).val, by rw [hN]; exact h0⟩, rfl⟩
  obtain ⟨-, -, -, -, -, -, e20, e21, e22⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- The region's output array after the run. -/
theorem final (c : Dev nD) : (dats m 0 c).arrAt 2 cfg0.N = kArr (V m c main_v0) (V m c main_arg1) :=
  (dats m 0 c).arrAt_eq_of_cover 2 (kArr (V m c main_v0) (V m c main_arg1)) (fun t _ => flushed_eq m c t) cover

/-- The features as the region finds them: the argument with its two spatial axes merged. -/
theorem V_main_v0 (c : Dev nD) : (V m c main_v0 : S16x512x4096.Idx → Elt F .f32)
    = shapeCast S16x512x4096 (m ((c : Thread nD τ).loc main_arg0)) shapeCasts_S16x512x64x64_S16x512x4096 := by
  show StableHlo.after hostOps0 (fun b => m (c, b)) (Proc.devRef .tc main_v0) = _
  after_results
  rfl

/-- The result buffer after the host line that follows the region: the region's output with the axes split again. -/
theorem tail_eq (c : Dev nD) : (Pipeline.afterTail₀ cfgs (dats m) 0 (V0 m) [hostOps1] c main_v2 : S16x512x64x64.Idx → Elt F .f32)
    = shapeCast S16x512x64x64 (kArr (V m c main_v0) (V m c main_arg1)) shapeCasts_S16x512x4096_S16x512x64x64 := by
  unfold Pipeline.afterTail₀
  show StableHlo.after hostOps1 _ (Proc.devRef .tc main_v2) = _
  after_results
  exact congrArg (fun A : S16x512x4096.Idx → Elt F .f32 => shapeCast S16x512x64x64 A shapeCasts_S16x512x4096_S16x512x64x64)
    ((Pipeline.withArrays_arr spec0 launch0.win.arr_inj c _ _ 2).trans (final m c))

/-- The kernel program's run, read: the result buffer at kResult of the two arguments, the arguments unchanged. -/
theorem run_F : θ_run (defs (F := F)) (onTc (τ := τ) (main (F := F))) ⟨m, fun _ => 0, ρ⟩ (fun r => ∀ c : Dev nD,
      r.2.mem ((c.tc : Thread nD τ).loc main_v2) = kResult (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans ((tail_eq m c).trans (by
        rw [V_main_v0, V_main_arg1]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

/-- At the ideal instance: every run of the kernel program ends with its result at kResult of the two arguments, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = kResult (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_F m ρ

end Cert.KernelIdeal.KerValue
end
-- ==== Proof.RefStages.lean ====
/-
  The reference's host operations grouped into the operations of one EM iteration on the whole batch, as functions of
  whole arrays at any float family: the l2 normalisation of each column of each [512, 64] basis, the softmax over the last
  axis of the batched scores, the l1 normalisation over the middle axis followed by the batched update, and the batched
  reconstruction. The result is three iterations from the normalised, batch-broadcast initial basis, then the
  reconstruction from the last basis and the last softmax, reshaped to [16, 512, 64, 64].
-/
import proofs.«108734_j4166118277546_1_alg».proof.Proof.Gen.ReferenceIdeal

noncomputable section

namespace Cert.ReferenceIdeal.Stage

open Idealize.ShloMosaic Cert.ReferenceIdeal Cert.ReferenceIdeal.Gen

variable {F : FTy → Type} [FloatOps F]

/-- Each column of each [512, 64] slice divided by (eps + its Euclidean norm). -/
def rNorm16 (X : FVec F S16x512x64 .f32) : FVec F S16x512x64 .f32 :=
  Host.divf X (broadcastInDim S16x512x64 ![0, 1, 2] bcast_S16x1x64_S16x512x64_0_1_2
    (addf (broadcastInDim S16x1x64 ![] bcast_S_S16x1x64 (constant S_ .f32 0x358637BD#32 : FVec F S_ .f32))
      (Host.sqrt (broadcastInDim S16x1x64 ![0, 2] bcast_S16x64_S16x1x64_0_2
        (Host.reduceAdd (mulf X X) (constant S_ .f32 0x00000000#32 : FVec F S_ .f32) reducesTo_S16x512x64_S16x64_d1 h_S_)))))

/-- The initial basis, normalised column by column and repeated for each of the 16 batch elements. -/
def rInit (Bs : FVec F S1x512x64 .f32) : FVec F S16x512x64 .f32 :=
  broadcastInDim S16x512x64 ![0, 1, 2] bcast_S1x512x64_S16x512x64_0_1_2
    (Host.divf Bs (broadcastInDim S1x512x64 ![0, 1, 2] bcast_S1x1x64_S1x512x64_0_1_2
      (addf (broadcastInDim S1x1x64 ![] bcast_S_S1x1x64 (constant S_ .f32 0x358637BD#32 : FVec F S_ .f32))
        (Host.sqrt (broadcastInDim S1x1x64 ![0, 2] bcast_S1x64_S1x1x64_0_2
          (Host.reduceAdd (mulf Bs Bs) (constant S_ .f32 0x00000000#32 : FVec F S_ .f32) reducesTo_S1x512x64_S1x64_d1 h_S_))))))

/-- The exponentials of the scores minus their maximum over the last axis. -/
def rExp (S : FVec F S16x4096x64 .f32) : FVec F S16x4096x64 .f32 :=
  Host.exp (subf S (broadcastInDim S16x4096x64 ![0, 1, 2] bcast_S16x4096x1_S16x4096x64_0_1_2
    (broadcastInDim S16x4096x1 ![0, 1] bcast_S16x4096_S16x4096x1_0_1
      (maximumf (broadcastInDim S16x4096 ![] bcast_S_S16x4096 (constant S_ .f32 0xFF800000#32 : FVec F S_ .f32))
        (Host.reduce FloatOps.maximumf S (constant S_ .f32 0xFF800000#32 : FVec F S_ .f32) reducesTo_S16x4096x64_S16x4096_d2 h_S_)))))

/-- The softmax over the last axis. -/
def rSoftmax (S : FVec F S16x4096x64 .f32) : FVec F S16x4096x64 .f32 :=
  Host.divf (rExp S) (broadcastInDim S16x4096x64 ![0, 1, 2] bcast_S16x4096x1_S16x4096x64_0_1_2
    (broadcastInDim S16x4096x1 ![0, 1] bcast_S16x4096_S16x4096x1_0_1
      (Host.reduceAdd (rExp S) (constant S_ .f32 0x00000000#32 : FVec F S_ .f32) reducesTo_S16x4096x64_S16x4096_d2 h_S_)))

/-- The attention of one iteration: the softmax of the batched f^T b. -/
def rAttn (F0 : FVec F S16x512x4096 .f32) (B : FVec F S16x512x64 .f32) : FVec F S16x4096x64 .f32 :=
  rSoftmax (Host.dotGeneral dot_S16x512x4096_S16x512x64_S16x4096x64_1_1_2_2_0_0 none F0 B)

/-- Each column (over the middle axis) divided by (eps + its sum). -/
def rL1 (A : FVec F S16x4096x64 .f32) : FVec F S16x4096x64 .f32 :=
  Host.divf A (broadcastInDim S16x4096x64 ![0, 1, 2] bcast_S16x1x64_S16x4096x64_0_1_2
    (addf (broadcastInDim S16x1x64 ![] bcast_S_S16x1x64 (constant S_ .f32 0x358637BD#32 : FVec F S_ .f32))
      (broadcastInDim S16x1x64 ![0, 2] bcast_S16x64_S16x1x64_0_2
        (Host.reduceAdd A (constant S_ .f32 0x00000000#32 : FVec F S_ .f32) reducesTo_S16x4096x64_S16x64_d1 h_S_))))

/-- The batched basis update. -/
def rUpd (F0 : FVec F S16x512x4096 .f32) (A : FVec F S16x4096x64 .f32) : FVec F S16x512x64 .f32 :=
  Host.dotGeneral dot_S16x512x4096_S16x4096x64_S16x512x64_2_1_1_2_0_0 none F0 (rL1 A)

/-- The batched reconstruction. -/
def rRecon (B : FVec F S16x512x64 .f32) (A : FVec F S16x4096x64 .f32) : FVec F S16x512x4096 .f32 :=
  Host.dotGeneral dot_S16x512x64_S16x4096x64_S16x512x4096_2_2_1_1_0_0 none B A

/-- One EM iteration on the batched basis. -/
def rStage (F0 : FVec F S16x512x4096 .f32) (B : FVec F S16x512x64 .f32) : FVec F S16x512x64 .f32 :=
  rNorm16 (rUpd F0 (rAttn F0 B))

/-- The features with the two spatial axes merged. -/
def rFeat (X : FVec F S16x512x64x64 .f32) : FVec F S16x512x4096 .f32 :=
  shapeCast S16x512x4096 X shapeCasts_S16x512x64x64_S16x512x4096

/-- The basis before the last iteration. -/
def rB3 (X : FVec F S16x512x64x64 .f32) (Bs : FVec F S1x512x64 .f32) : FVec F S16x512x64 .f32 :=
  rStage (rFeat X) (rStage (rFeat X) (rInit Bs))

/-- The reconstruction before the final reshape. -/
def rArr (X : FVec F S16x512x64x64 .f32) (Bs : FVec F S1x512x64 .f32) : FVec F S16x512x4096 .f32 :=
  rRecon (rStage (rFeat X) (rB3 X Bs)) (rAttn (rFeat X) (rB3 X Bs))

/-- The reference's result as one function of its two arguments. -/
def rResult (X : FVec F S16x512x64x64 .f32) (Bs : FVec F S1x512x64 .f32) : FVec F S16x512x64x64 .f32 :=
  shapeCast S16x512x64x64 (rArr X Bs) shapeCasts_S16x512x4096_S16x512x64x64

end Cert.ReferenceIdeal.Stage

end
-- ==== Proof.RefRun.lean ====
/-
  The reference's run, read stretch by stretch. Its 116 host operations are cut into five consecutive stretches: the
  preparation (the features with their two spatial axes merged; the initial basis normalised column by column and
  repeated over the batch), three EM iterations (each: scores, softmax over the last axis, l1 normalisation over the
  middle axis, the update, the l2 normalisation of the new basis), and the reconstruction with its final reshape.
  For ANY contents W of the buffers before a stretch, the buffer the stretch ends in holds the corresponding whole-array
  function (RefStages.lean) of what W has at the buffers the stretch reads, and the buffers it only reads are unchanged.
  The contents after the whole list are the contents after the last stretch from those after the one before, and so on
  down to the launch contents; composing the five facts gives the result buffer as `rResult` of the two arguments.
-/
import proofs.«108734_j4166118277546_1_alg».proof.Proof.RefRunOps
import proofs.«108734_j4166118277546_1_alg».proof.Proof.RefStages
import Idealize.ShloMosaic.Lib.Pipeline.Frame

noncomputable section

open Idealize.ShloMosaic Idealize.SL.Sem

namespace Cert.ReferenceIdeal.RefValue

open Cert.ReferenceIdeal Cert.ReferenceIdeal.Stage
open Cert.ReferenceIdeal.Gen Cert.ReferenceIdeal.RefOps Idealize.ShloMosaic.TcCoe Idealize.ShloMosaic.StableHlo

section Stretches

variable {F : FTy → Type} [FloatOps F]

/-! ## The preparation -/

/-- Operations 0 to 11: the features reshaped to [16, 512, 4096] in `main_v0`; the column norms of the initial basis,
    eps added, the basis divided by them and repeated for the 16 batch elements in `main_v6`. -/
abbrev opsP : List (HloOp τ sig (Elt F)) :=
  [ reshape main_arg0 main_v0 rfl shapeCasts_S16x512x64x64_S16x512x4096,
    TRef.binary (TRef.of (T := ⟨S1x512x64, .f32⟩) main_arg1) (TRef.of (T := ⟨S1x512x64, .f32⟩) main_arg1) (TRef.of (T := ⟨S1x512x64, .f32⟩) main_call0_v0) mulf,
    TRef.nullary (TRef.of (T := ⟨S_, .f32⟩) main_call0_cst) (constant S_ .f32 0x00000000#32),
    TRef.binary (TRef.of (T := ⟨S1x512x64, .f32⟩) main_call0_v0) (TRef.of (T := ⟨S_, .f32⟩) main_call0_cst) (TRef.of (T := ⟨S1x64, .f32⟩) main_call0_v1) (fun x v => Host.reduceAdd x v reducesTo_S1x512x64_S1x64_d1 h_S_),
    TRef.unary (TRef.of (T := ⟨S1x64, .f32⟩) main_call0_v1) (TRef.of (T := ⟨S1x1x64, .f32⟩) main_call0_v2) (broadcastInDim S1x1x64 ![0, 2] bcast_S1x64_S1x1x64_0_2),
    TRef.unary (TRef.of (T := ⟨S1x1x64, .f32⟩) main_call0_v2) (TRef.of (T := ⟨S1x1x64, .f32⟩) main_v1) Host.sqrt,
    nullary main_cst (constant S_ .f32 0x358637BD#32),
    unary main_cst main_v2 (broadcastInDim S1x1x64 ![] bcast_S_S1x1x64 : (⟨S_, .f32⟩ : BufTy).Contents (Elt F) → (⟨S1x1x64, .f32⟩ : BufTy).Contents (Elt F)),
    binary main_v2 main_v1 main_v3 (addf : (⟨S1x1x64, .f32⟩ : BufTy).Contents (Elt F) → (⟨S1x1x64, .f32⟩ : BufTy).Contents (Elt F) → (⟨S1x1x64, .f32⟩ : BufTy).Contents (Elt F)),
    unary main_v3 main_v4 (broadcastInDim S1x512x64 ![0, 1, 2] bcast_S1x1x64_S1x512x64_0_1_2 : (⟨S1x1x64, .f32⟩ : BufTy).Contents (Elt F) → (⟨S1x512x64, .f32⟩ : BufTy).Contents (Elt F)),
    binary main_arg1 main_v4 main_v5 (Host.divf : (⟨S1x512x64, .f32⟩ : BufTy).Contents (Elt F) → (⟨S1x512x64, .f32⟩ : BufTy).Contents (Elt F) → (⟨S1x512x64, .f32⟩ : BufTy).Contents (Elt F)),
    unary main_v5 main_v6 (broadcastInDim S16x512x64 ![0, 1, 2] bcast_S1x512x64_S16x512x64_0_1_2 : (⟨S1x512x64, .f32⟩ : BufTy).Contents (Elt F) → (⟨S16x512x64, .f32⟩ : BufTy).Contents (Elt F)) ]

/-- The preparation leaves the merged features in `main_v0`. -/
theorem afterP_v0 (W : Valuation τ sig (Elt F)) :
    after opsP W (Proc.devRef .tc main_v0) = rFeat (W (Proc.devRef .tc main_arg0)) := by
  after_results_simp
  rfl

/-- The preparation leaves the normalised, batch-repeated initial basis in `main_v6`. -/
theorem afterP_v6 (W : Valuation τ sig (Elt F)) :
    after opsP W (Proc.devRef .tc main_v6) = rInit (W (Proc.devRef .tc main_arg1)) := by
  after_results_simp
  rfl

/-- The preparation writes no argument. -/
theorem afterP_arg0 (W : Valuation τ sig (Elt F)) :
    after opsP W (Proc.devRef .tc main_arg0) = W (Proc.devRef .tc main_arg0) := by
  after_results_simp
theorem afterP_arg1 (W : Valuation τ sig (Elt F)) :
    after opsP W (Proc.devRef .tc main_arg1) = W (Proc.devRef .tc main_arg1) := by
  after_results_simp

/-! ## The three iterations -/

/-- Operations 12 to 45: the first iteration, from the basis in `main_v6` to the basis in `main_v30`. -/
abbrev opsS1 : List (HloOp τ sig (Elt F)) :=
  [ binary main_v0 main_v6 main_v7 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_0 (constant S_ .f32 0xFF800000#32),
    binary main_v7 main_cst_0 main_v8 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_1 (constant S_ .f32 0xFF800000#32),
    unary main_cst_1 main_v9 (broadcastInDim S16x4096 ![] bcast_S_S16x4096 : (⟨S_, .f32⟩ : BufTy).Contents (Elt F) → (⟨S16x4096, .f32⟩ : BufTy).Contents (Elt F)),
    binary main_v9 main_v8 main_v10 (maximumf : (⟨S16x4096, .f32⟩ : BufTy).Contents (Elt F) → (⟨S16x4096, .f32⟩ : BufTy).Contents (Elt F) → (⟨S16x4096, .f32⟩ : BufTy).Contents (Elt F)),
    unary main_v10 main_v11 (broadcastInDim S16x4096x1 ![0, 1] bcast_S16x4096_S16x4096x1_0_1 : (⟨S16x4096, .f32⟩ : BufTy).Contents (Elt F) → (⟨S16x4096x1, .f32⟩ : BufTy).Contents (Elt F)),
    unary main_v11 main_v12 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v7 main_v12 main_v13 (subf : (⟨S16x4096x64, .f32⟩ : BufTy).Contents (Elt F) → (⟨S16x4096x64, .f32⟩ : BufTy).Contents (Elt F) → (⟨S16x4096x64, .f32⟩ : BufTy).Contents (Elt F)),
    unary main_v13 main_v14 (Host.exp : (⟨S16x4096x64, .f32⟩ : BufTy).Contents (Elt F) → (⟨S16x4096x64, .f32⟩ : BufTy).Contents (Elt F)),
    nullary main_cst_2 (constant S_ .f32 0x00000000#32),
    binary main_v14 main_cst_2 main_v15 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v15 main_v16 (broadcastInDim S16x4096x1 ![0, 1] bcast_S16x4096_S16x4096x1_0_1 : (⟨S16x4096, .f32⟩ : BufTy).Contents (Elt F) → (⟨S16x4096x1, .f32⟩ : BufTy).Contents (Elt F)),
    unary main_v16 main_v17 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v14 main_v17 main_v18 (Host.divf : (⟨S16x4096x64, .f32⟩ : BufTy).Contents (Elt F) → (⟨S16x4096x64, .f32⟩ : BufTy).Contents (Elt F) → (⟨S16x4096x64, .f32⟩ : BufTy).Contents (Elt F)),
    nullary main_cst_3 (constant S_ .f32 0x00000000#32),
    binary main_v18 main_cst_3 main_v19 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v19 main_v20 (broadcastInDim S16x1x64 ![0, 2] bcast_S16x64_S16x1x64_0_2 : (⟨S16x64, .f32⟩ : BufTy).Contents (Elt F) → (⟨S16x1x64, .f32⟩ : BufTy).Contents (Elt F)),
    nullary main_cst_4 (constant S_ .f32 0x358637BD#32),
    unary main_cst_4 main_v21 (broadcastInDim S16x1x64 ![] bcast_S_S16x1x64 : (⟨S_, .f32⟩ : BufTy).Contents (Elt F) → (⟨S16x1x64, .f32⟩ : BufTy).Contents (Elt F)),
    binary main_v21 main_v20 main_v22 (addf : (⟨S16x1x64, .f32⟩ : BufTy).Contents (Elt F) → (⟨S16x1x64, .f32⟩ : BufTy).Contents (Elt F) → (⟨S16x1x64, .f32⟩ : BufTy).Contents (Elt F)),
    unary main_v22 main_v23 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v18 main_v23 main_v24 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v24 main_v25 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v25) (TRef.of (T := ⟨S16x512x64, .f32⟩) main_v25) (TRef.of (T := ⟨S16x512x64, .f32⟩) main_call1_v0) mulf,
    TRef.nullary (TRef.of (T := ⟨S_, .f32⟩) main_call1_cst) (constant S_ .f32 0x00000000#32),
    TRef.binary (TRef.of (T := ⟨S16x512x64, .f32⟩) main_call1_v0) (TRef.of (T := ⟨S_, .f32⟩) main_call1_cst) (TRef.of (T := ⟨S16x64, .f32⟩) main_call1_v1) (fun x v => Host.reduceAdd x v reducesTo_S16x512x64_S16x64_d1 h_S_),
    TRef.unary (TRef.of (T := ⟨S16x64, .f32⟩) main_call1_v1) (TRef.of (T := ⟨S16x1x64, .f32⟩) main_call1_v2) (broadcastInDim S16x1x64 ![0, 2] bcast_S16x64_S16x1x64_0_2),
    TRef.unary (TRef.of (T := ⟨S16x1x64, .f32⟩) main_call1_v2) (TRef.of (T := ⟨S16x1x64, .f32⟩) main_v26) Host.sqrt,
    nullary main_cst_5 (constant S_ .f32 0x358637BD#32),
    unary main_cst_5 main_v27 (broadcastInDim S16x1x64 ![] bcast_S_S16x1x64 : (⟨S_, .f32⟩ : BufTy).Contents (Elt F) → (⟨S16x1x64, .f32⟩ : BufTy).Contents (Elt F)),
    binary main_v27 main_v26 main_v28 (addf : (⟨S16x1x64, .f32⟩ : BufTy).Contents (Elt F) → (⟨S16x1x64, .f32⟩ : BufTy).Contents (Elt F) → (⟨S16x1x64, .f32⟩ : BufTy).Contents (Elt F)),
    unary main_v28 main_v29 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v25 main_v29 main_v30 (Host.divf : (⟨S16x512x64, .f32⟩ : BufTy).Contents (Elt F) → (⟨S16x512x64, .f32⟩ : BufTy).Contents (Elt F) → (⟨S16x512x64, .f32⟩ : BufTy).Contents (Elt F)) ]

/-- The stretch ends with the next basis in `main_v30`: one iteration applied to the features and the basis it found. -/
theorem afterS1_v30 (W : Valuation τ sig (Elt F)) :
    after opsS1 W (Proc.devRef .tc main_v30) = rStage (W (Proc.devRef .tc main_v0)) (W (Proc.devRef .tc main_v6)) := by
  after_results_simp
  rfl

/-- The stretch writes neither the features nor an argument. -/
theorem afterS1_v0 (W : Valuation τ sig (Elt F)) :
    after opsS1 W (Proc.devRef .tc main_v0) = W (Proc.devRef .tc main_v0) := by
  after_results_simp
theorem afterS1_arg0 (W : Valuation τ sig (Elt F)) :
    after opsS1 W (Proc.devRef .tc main_arg0) = W (Proc.devRef .tc main_arg0) := by
  after_results_simp
theorem afterS1_arg1 (W : Valuation τ sig (Elt F)) :
    after opsS1 W (Proc.devRef .tc main_arg1) = W (Proc.devRef .tc main_arg1) := by
  after_results_simp

/-- Operations 46 to 79: the second iteration, from the basis in `main_v30` to the basis in `main_v54`. -/
abbrev opsS2 : List (HloOp τ sig (Elt F)) :=
  [ binary main_v0 main_v30 main_v31 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_6 (constant S_ .f32 0xFF800000#32),
    binary main_v31 main_cst_6 main_v32 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_7 (constant S_ .f32 0xFF800000#32),
    unary main_cst_7 main_v33 (broadcastInDim S16x4096 ![] bcast_S_S16x4096 : (⟨S_, .f32⟩ : BufTy).Contents (Elt F) → (⟨S16x4096, .f32⟩ : BufTy).Contents (Elt F)),
    binary main_v33 main_v32 main_v34 (maximumf : (⟨S16x4096, .f32⟩ : BufTy).Contents (Elt F) → (⟨S16x4096, .f32⟩ : BufTy).Contents (Elt F) → (⟨S16x4096, .f32⟩ : BufTy).Contents (Elt F)),
    unary main_v34 main_v35 (broadcastInDim S16x4096x1 ![0, 1] bcast_S16x4096_S16x4096x1_0_1 : (⟨S16x4096, .f32⟩ : BufTy).Contents (Elt F) → (⟨S16x4096x1, .f32⟩ : BufTy).Contents (Elt F)),
    unary main_v35 main_v36 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v31 main_v36 main_v37 (subf : (⟨S16x4096x64, .f32⟩ : BufTy).Contents (Elt F) → (⟨S16x4096x64, .f32⟩ : BufTy).Contents (Elt F) → (⟨S16x4096x64, .f32⟩ : BufTy).Contents (Elt F)),
    unary main_v37 main_v38 (Host.exp : (⟨S16x4096x64, .f32⟩ : BufTy).Contents (Elt F) → (⟨S16x4096x64, .f32⟩ : BufTy).Contents (Elt F)),
    nullary main_cst_8 (constant S_ .f32 0x00000000#32),
    binary main_v38 main_cst_8 main_v39 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v39 main_v40 (broadcastInDim S16x4096x1 ![0, 1] bcast_S16x4096_S16x4096x1_0_1 : (⟨S16x4096, .f32⟩ : BufTy).Contents (Elt F) → (⟨S16x4096x1, .f32⟩ : BufTy).Contents (Elt F)),
    unary main_v40 main_v41 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v38 main_v41 main_v42 (Host.divf : (⟨S16x4096x64, .f32⟩ : BufTy).Contents (Elt F) → (⟨S16x4096x64, .f32⟩ : BufTy).Contents (Elt F) → (⟨S16x4096x64, .f32⟩ : BufTy).Contents (Elt F)),
    nullary main_cst_9 (constant S_ .f32 0x00000000#32),
    binary main_v42 main_cst_9 main_v43 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v43 main_v44 (broadcastInDim S16x1x64 ![0, 2] bcast_S16x64_S16x1x64_0_2 : (⟨S16x64, .f32⟩ : BufTy).Contents (Elt F) → (⟨S16x1x64, .f32⟩ : BufTy).Contents (Elt F)),
    nullary main_cst_10 (constant S_ .f32 0x358637BD#32),
    unary main_cst_10 main_v45 (broadcastInDim S16x1x64 ![] bcast_S_S16x1x64 : (⟨S_, .f32⟩ : BufTy).Contents (Elt F) → (⟨S16x1x64, .f32⟩ : BufTy).Contents (Elt F)),
    binary main_v45 main_v44 main_v46 (addf : (⟨S16x1x64, .f32⟩ : BufTy).Contents (Elt F) → (⟨S16x1x64, .f32⟩ : BufTy).Contents (Elt F) → (⟨S16x1x64, .f32⟩ : BufTy).Contents (Elt F)),
    unary main_v46 main_v47 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v42 main_v47 main_v48 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v48 main_v49 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v49) (TRef.of (T := ⟨S16x512x64, .f32⟩) main_v49) (TRef.of (T := ⟨S16x512x64, .f32⟩) main_call2_v0) mulf,
    TRef.nullary (TRef.of (T := ⟨S_, .f32⟩) main_call2_cst) (constant S_ .f32 0x00000000#32),
    TRef.binary (TRef.of (T := ⟨S16x512x64, .f32⟩) main_call2_v0) (TRef.of (T := ⟨S_, .f32⟩) main_call2_cst) (TRef.of (T := ⟨S16x64, .f32⟩) main_call2_v1) (fun x v => Host.reduceAdd x v reducesTo_S16x512x64_S16x64_d1 h_S_),
    TRef.unary (TRef.of (T := ⟨S16x64, .f32⟩) main_call2_v1) (TRef.of (T := ⟨S16x1x64, .f32⟩) main_call2_v2) (broadcastInDim S16x1x64 ![0, 2] bcast_S16x64_S16x1x64_0_2),
    TRef.unary (TRef.of (T := ⟨S16x1x64, .f32⟩) main_call2_v2) (TRef.of (T := ⟨S16x1x64, .f32⟩) main_v50) Host.sqrt,
    nullary main_cst_11 (constant S_ .f32 0x358637BD#32),
    unary main_cst_11 main_v51 (broadcastInDim S16x1x64 ![] bcast_S_S16x1x64 : (⟨S_, .f32⟩ : BufTy).Contents (Elt F) → (⟨S16x1x64, .f32⟩ : BufTy).Contents (Elt F)),
    binary main_v51 main_v50 main_v52 (addf : (⟨S16x1x64, .f32⟩ : BufTy).Contents (Elt F) → (⟨S16x1x64, .f32⟩ : BufTy).Contents (Elt F) → (⟨S16x1x64, .f32⟩ : BufTy).Contents (Elt F)),
    unary main_v52 main_v53 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v49 main_v53 main_v54 (Host.divf : (⟨S16x512x64, .f32⟩ : BufTy).Contents (Elt F) → (⟨S16x512x64, .f32⟩ : BufTy).Contents (Elt F) → (⟨S16x512x64, .f32⟩ : BufTy).Contents (Elt F)) ]

/-- The stretch ends with the next basis in `main_v54`: one iteration applied to the features and the basis it found. -/
theorem afterS2_v54 (W : Valuation τ sig (Elt F)) :
    after opsS2 W (Proc.devRef .tc main_v54) = rStage (W (Proc.devRef .tc main_v0)) (W (Proc.devRef .tc main_v30)) := by
  after_results_simp
  rfl

/-- The stretch writes neither the features nor an argument. -/
theorem afterS2_v0 (W : Valuation τ sig (Elt F)) :
    after opsS2 W (Proc.devRef .tc main_v0) = W (Proc.devRef .tc main_v0) := by
  after_results_simp
theorem afterS2_arg0 (W : Valuation τ sig (Elt F)) :
    after opsS2 W (Proc.devRef .tc main_arg0) = W (Proc.devRef .tc main_arg0) := by
  after_results_simp
theorem afterS2_arg1 (W : Valuation τ sig (Elt F)) :
    after opsS2 W (Proc.devRef .tc main_arg1) = W (Proc.devRef .tc main_arg1) := by
  after_results_simp

/-- Operations 80 to 113: the third iteration, from the basis in `main_v54` to the basis in `main_v78`; its softmax stays in `main_v66`. -/
abbrev opsS3 : List (HloOp τ sig (Elt F)) :=
  [ binary main_v0 main_v54 main_v55 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_12 (constant S_ .f32 0xFF800000#32),
    binary main_v55 main_cst_12 main_v56 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_13 (constant S_ .f32 0xFF800000#32),
    unary main_cst_13 main_v57 (broadcastInDim S16x4096 ![] bcast_S_S16x4096 : (⟨S_, .f32⟩ : BufTy).Contents (Elt F) → (⟨S16x4096, .f32⟩ : BufTy).Contents (Elt F)),
    binary main_v57 main_v56 main_v58 (maximumf : (⟨S16x4096, .f32⟩ : BufTy).Contents (Elt F) → (⟨S16x4096, .f32⟩ : BufTy).Contents (Elt F) → (⟨S16x4096, .f32⟩ : BufTy).Contents (Elt F)),
    unary main_v58 main_v59 (broadcastInDim S16x4096x1 ![0, 1] bcast_S16x4096_S16x4096x1_0_1 : (⟨S16x4096, .f32⟩ : BufTy).Contents (Elt F) → (⟨S16x4096x1, .f32⟩ : BufTy).Contents (Elt F)),
    unary main_v59 main_v60 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v55 main_v60 main_v61 (subf : (⟨S16x4096x64, .f32⟩ : BufTy).Contents (Elt F) → (⟨S16x4096x64, .f32⟩ : BufTy).Contents (Elt F) → (⟨S16x4096x64, .f32⟩ : BufTy).Contents (Elt F)),
    unary main_v61 main_v62 (Host.exp : (⟨S16x4096x64, .f32⟩ : BufTy).Contents (Elt F) → (⟨S16x4096x64, .f32⟩ : BufTy).Contents (Elt F)),
    nullary main_cst_14 (constant S_ .f32 0x00000000#32),
    binary main_v62 main_cst_14 main_v63 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v63 main_v64 (broadcastInDim S16x4096x1 ![0, 1] bcast_S16x4096_S16x4096x1_0_1 : (⟨S16x4096, .f32⟩ : BufTy).Contents (Elt F) → (⟨S16x4096x1, .f32⟩ : BufTy).Contents (Elt F)),
    unary main_v64 main_v65 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v62 main_v65 main_v66 (Host.divf : (⟨S16x4096x64, .f32⟩ : BufTy).Contents (Elt F) → (⟨S16x4096x64, .f32⟩ : BufTy).Contents (Elt F) → (⟨S16x4096x64, .f32⟩ : BufTy).Contents (Elt F)),
    nullary main_cst_15 (constant S_ .f32 0x00000000#32),
    binary main_v66 main_cst_15 main_v67 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v67 main_v68 (broadcastInDim S16x1x64 ![0, 2] bcast_S16x64_S16x1x64_0_2 : (⟨S16x64, .f32⟩ : BufTy).Contents (Elt F) → (⟨S16x1x64, .f32⟩ : BufTy).Contents (Elt F)),
    nullary main_cst_16 (constant S_ .f32 0x358637BD#32),
    unary main_cst_16 main_v69 (broadcastInDim S16x1x64 ![] bcast_S_S16x1x64 : (⟨S_, .f32⟩ : BufTy).Contents (Elt F) → (⟨S16x1x64, .f32⟩ : BufTy).Contents (Elt F)),
    binary main_v69 main_v68 main_v70 (addf : (⟨S16x1x64, .f32⟩ : BufTy).Contents (Elt F) → (⟨S16x1x64, .f32⟩ : BufTy).Contents (Elt F) → (⟨S16x1x64, .f32⟩ : BufTy).Contents (Elt F)),
    unary main_v70 main_v71 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v66 main_v71 main_v72 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v72 main_v73 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v73) (TRef.of (T := ⟨S16x512x64, .f32⟩) main_v73) (TRef.of (T := ⟨S16x512x64, .f32⟩) main_call3_v0) mulf,
    TRef.nullary (TRef.of (T := ⟨S_, .f32⟩) main_call3_cst) (constant S_ .f32 0x00000000#32),
    TRef.binary (TRef.of (T := ⟨S16x512x64, .f32⟩) main_call3_v0) (TRef.of (T := ⟨S_, .f32⟩) main_call3_cst) (TRef.of (T := ⟨S16x64, .f32⟩) main_call3_v1) (fun x v => Host.reduceAdd x v reducesTo_S16x512x64_S16x64_d1 h_S_),
    TRef.unary (TRef.of (T := ⟨S16x64, .f32⟩) main_call3_v1) (TRef.of (T := ⟨S16x1x64, .f32⟩) main_call3_v2) (broadcastInDim S16x1x64 ![0, 2] bcast_S16x64_S16x1x64_0_2),
    TRef.unary (TRef.of (T := ⟨S16x1x64, .f32⟩) main_call3_v2) (TRef.of (T := ⟨S16x1x64, .f32⟩) main_v74) Host.sqrt,
    nullary main_cst_17 (constant S_ .f32 0x358637BD#32),
    unary main_cst_17 main_v75 (broadcastInDim S16x1x64 ![] bcast_S_S16x1x64 : (⟨S_, .f32⟩ : BufTy).Contents (Elt F) → (⟨S16x1x64, .f32⟩ : BufTy).Contents (Elt F)),
    binary main_v75 main_v74 main_v76 (addf : (⟨S16x1x64, .f32⟩ : BufTy).Contents (Elt F) → (⟨S16x1x64, .f32⟩ : BufTy).Contents (Elt F) → (⟨S16x1x64, .f32⟩ : BufTy).Contents (Elt F)),
    unary main_v76 main_v77 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v73 main_v77 main_v78 (Host.divf : (⟨S16x512x64, .f32⟩ : BufTy).Contents (Elt F) → (⟨S16x512x64, .f32⟩ : BufTy).Contents (Elt F) → (⟨S16x512x64, .f32⟩ : BufTy).Contents (Elt F)) ]

/-- The stretch ends with the next basis in `main_v78`: one iteration applied to the features and the basis it found. -/
theorem afterS3_v78 (W : Valuation τ sig (Elt F)) :
    after opsS3 W (Proc.devRef .tc main_v78) = rStage (W (Proc.devRef .tc main_v0)) (W (Proc.devRef .tc main_v54)) := by
  after_results_simp
  rfl

/-- The third iteration's softmax, which the reconstruction reads, is in `main_v66`. -/
theorem afterS3_v66 (W : Valuation τ sig (Elt F)) :
    after opsS3 W (Proc.devRef .tc main_v66) = rAttn (W (Proc.devRef .tc main_v0)) (W (Proc.devRef .tc main_v54)) := by
  after_results_simp
  rfl

/-- The stretch writes neither the features nor an argument. -/
theorem afterS3_arg0 (W : Valuation τ sig (Elt F)) :
    after opsS3 W (Proc.devRef .tc main_arg0) = W (Proc.devRef .tc main_arg0) := by
  after_results_simp
theorem afterS3_arg1 (W : Valuation τ sig (Elt F)) :
    after opsS3 W (Proc.devRef .tc main_arg1) = W (Proc.devRef .tc main_arg1) := by
  after_results_simp

/-! ## The reconstruction -/

/-- Operations 114 and 115: the batched product of the last basis with the last softmax, reshaped to [16, 512, 64, 64]. -/
abbrev opsFn : List (HloOp τ sig (Elt F)) :=
  [ binary main_v78 main_v66 main_v79 ((fun l r => Host.dotGeneral dot_S16x512x64_S16x4096x64_S16x512x4096_2_2_1_1_0_0 none l r) : (⟨S16x512x64, .f32⟩ : BufTy).Contents (Elt F) → (⟨S16x4096x64, .f32⟩ : BufTy).Contents (Elt F) → (⟨S16x512x4096, .f32⟩ : BufTy).Contents (Elt F)),
    reshape main_v79 main_v80 rfl shapeCasts_S16x512x4096_S16x512x64x64 ]

/-- The result buffer holds the reshaped reconstruction. -/
theorem afterFn_v80 (W : Valuation τ sig (Elt F)) :
    after opsFn W (Proc.devRef .tc main_v80)
      = shapeCast S16x512x64x64 (rRecon (W (Proc.devRef .tc main_v78)) (W (Proc.devRef .tc main_v66))) shapeCasts_S16x512x4096_S16x512x64x64 := by
  after_results_simp
  rfl

/-- The reconstruction writes no argument. -/
theorem afterFn_arg0 (W : Valuation τ sig (Elt F)) :
    after opsFn W (Proc.devRef .tc main_arg0) = W (Proc.devRef .tc main_arg0) := by
  after_results_simp
theorem afterFn_arg1 (W : Valuation τ sig (Elt F)) :
    after opsFn W (Proc.devRef .tc main_arg1) = W (Proc.devRef .tc main_arg1) := by
  after_results_simp

/-! ## The whole list -/

/-- The list of operations is the five stretches in a row. -/
theorem ops_split : (ops : List (HloOp τ sig (Elt F))) = opsP ++ (opsS1 ++ (opsS2 ++ (opsS3 ++ opsFn))) := rfl

/-- After all the operations the result buffer holds `rResult` of what the two arguments held before them. -/
theorem after_ops_v80 (V : Valuation τ sig (Elt F)) :
    after ops V (Proc.devRef .tc main_v80) = rResult (V (Proc.devRef .tc main_arg0)) (V (Proc.devRef .tc main_arg1)) := by
  rw [ops_split, after_append, after_append, after_append, after_append]
  rw [afterFn_v80, afterS3_v78, afterS3_v66, afterS2_v54, afterS2_v0, afterS1_v30, afterS1_v0, afterP_v0, afterP_v6]
  rfl

/-- No operation writes the first argument. -/
theorem after_ops_arg0 (V : Valuation τ sig (Elt F)) :
    after ops V (Proc.devRef .tc main_arg0) = V (Proc.devRef .tc main_arg0) := by
  rw [ops_split, after_append, after_append, after_append, after_append]
  rw [afterFn_arg0, afterS3_arg0, afterS2_arg0, afterS1_arg0, afterP_arg0]

/-- No operation writes the second argument. -/
theorem after_ops_arg1 (V : Valuation τ sig (Elt F)) :
    after ops V (Proc.devRef .tc main_arg1) = V (Proc.devRef .tc main_arg1) := by
  rw [ops_split, after_append, after_append, after_append, after_append]
  rw [afterFn_arg1, afterS3_arg1, afterS2_arg1, afterS1_arg1, afterP_arg1]

end Stretches

/-- On every device, for any float values, from any memory with zero counters: every weakly fair execution of the
    reference terminates with the result buffer at `rResult` of the two arguments' launch contents and the arguments
    unchanged. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v80) = rResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v80).trans (after_ops_v80 _), (h c main_arg0).trans (after_ops_arg0 _),
      (h c main_arg1).trans (after_ops_arg1 _)⟩)
    (RefOps.run_after m ρ)

end Cert.ReferenceIdeal.RefValue

end
-- ==== Proof.Spec.lean ====
/-
  One EM iteration as plain mathematics on the extended reals, over matrices indexed by coordinates: the column-wise l2
  normalisation x[c,k] / (eps + sqrt (sum_c' x[c',k]^2)), the scores sum_c f[c,n] b[c,k], the row softmax with the
  row's maximum subtracted, the column-wise l1 normalisation a[n,k] / (eps + sum_n' a[n',k]), the update
  sum_n f[c,n] a[n,k] and the reconstruction sum_k b[c,k] a[n,k]. Both programs compute these, the kernel on one batch
  element's matrices and the reference on a slice of the batched arrays; `rd2` and `rd3` read a matrix out of a rank-2
  array and out of one slice of a rank-3 array.
-/
import Idealize.ShloMosaic.PureOps.Ideal
import Idealize.ShloMosaic.Lib.ValueIdx

noncomputable section

open scoped BigOperators

namespace Cert.Spec

open Idealize.ShloMosaic Idealize.ShloMosaic.ValueIdx

/-- The f32 literal 1e-6 both programs add to every norm. -/
def eps : EReal := Ideal.ofBits .f32 0x358637BD#32
/-- The f32 pattern of minus infinity the maxima start from. -/
def ninf : EReal := Ideal.ofBits .f32 0xFF800000#32

/-- A rank-2 array as a matrix. -/
def rd2 {A B : ℕ} (x : (⟨2, ![A, B]⟩ : Shape).Idx → EReal) : Fin A → Fin B → EReal := fun a b => x (ix2 a b)
/-- Slice `t` of a rank-3 array as a matrix. -/
def rd3 {N A B : ℕ} (x : (⟨3, ![N, A, B]⟩ : Shape).Idx → EReal) (t : Fin N) : Fin A → Fin B → EReal := fun a b => x (ix3 t a b)

variable {C N K : ℕ}

/-- Each column divided by (eps + its Euclidean norm). -/
def colNorm (x : Fin C → Fin K → EReal) : Fin C → Fin K → EReal :=
  fun c k => Ideal.div (x c k) (eps + Ideal.sqrt (∑ c', x c' k * x c' k))

/-- The scores f^T b. -/
def scores (f : Fin C → Fin N → EReal) (b : Fin C → Fin K → EReal) : Fin N → Fin K → EReal :=
  fun n k => ∑ c, f c n * b c k

/-- A row's maximum, taken from minus infinity, and once more against minus infinity. -/
def rowMax (s : Fin N → Fin K → EReal) (n : Fin N) : EReal :=
  max ninf ((Finset.univ : Finset (Fin K)).fold max ninf (fun k => s n k))

/-- The exponential of each entry minus its row's maximum. -/
def rowExp (s : Fin N → Fin K → EReal) : Fin N → Fin K → EReal :=
  fun n k => Ideal.exp (s n k - rowMax s n)

/-- The softmax of each row. -/
def softmaxRows (s : Fin N → Fin K → EReal) : Fin N → Fin K → EReal :=
  fun n k => Ideal.div (rowExp s n k) (∑ k', rowExp s n k')

/-- Each column divided by (eps + its sum). -/
def colL1 (a : Fin N → Fin K → EReal) : Fin N → Fin K → EReal :=
  fun n k => Ideal.div (a n k) (eps + ∑ n', a n' k)

/-- The update f a. -/
def update (f : Fin C → Fin N → EReal) (a : Fin N → Fin K → EReal) : Fin C → Fin K → EReal :=
  fun c k => ∑ n, f c n * a n k

/-- The reconstruction b a^T. -/
def recon (b : Fin C → Fin K → EReal) (a : Fin N → Fin K → EReal) : Fin C → Fin N → EReal :=
  fun c n => ∑ k, b c k * a n k

/-- The attention of one iteration. -/
def attn (f : Fin C → Fin N → EReal) (b : Fin C → Fin K → EReal) : Fin N → Fin K → EReal :=
  softmaxRows (scores f b)

/-- One EM iteration on the basis. -/
def stage (f : Fin C → Fin N → EReal) (b : Fin C → Fin K → EReal) : Fin C → Fin K → EReal :=
  colNorm (update f (colL1 (attn f b)))

/-- The whole computation on one batch element: three iterations from the normalised basis, then the reconstruction
    from the last basis and the last attention. -/
def emRecon (f : Fin C → Fin N → EReal) (b0 : Fin C → Fin K → EReal) : Fin C → Fin N → EReal :=
  recon (stage f (stage f (stage f (colNorm b0)))) (attn f (stage f (stage f (colNorm b0))))

end Cert.Spec

end
-- ==== Proof.LibKeepdimsSums.lean ====
/-
  Sums along one axis of a matrix, and the broadcasts that undo a kept unit axis, read at an index given by coordinates.

  At the ideal values a float `vector.multi_reduction <add>` of an `[a, b]` matrix over its second axis is, at row `p`,
  the sum of that row's entries; over its first axis it is, at column `q`, the sum of that column's entries. A column
  `[a, 1]` broadcast to `[a, b]` repeats entry `(p, 0)` along row `p`; a single cell `[1, 1]` broadcast to `[a, b]` is that
  cell everywhere.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

variable {α : Type}

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` cell broadcast to `[a, b]` reads the cell at every index. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

variable {φ : FTy}

/-- The sum of an `[a, b]` matrix over its second axis, at row `p`: the sum of the row. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ n : Fin b, src (ix2 p n) :=
  (Ideal.multiReduction_add_single src acc h hφ hacc (ix1 p)).trans
    (Finset.sum_congr rfl fun n _ => congrArg src (funext fun ax => Fin.ext (by
      match ax with
      | ⟨0, _⟩ => rfl
      | ⟨1, _⟩ => rfl)))

/-- The sum of an `[a, b]` matrix over its first axis, at column `q`: the sum of the column. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ c : Fin a, src (ix2 c q) :=
  (Ideal.multiReduction_add_single src acc h hφ hacc (ix1 q)).trans
    (Finset.sum_congr rfl fun c _ => congrArg src (funext fun ax => Fin.ext (by
      match ax with
      | ⟨0, _⟩ => rfl
      | ⟨1, _⟩ => rfl)))

end Idealize.ShloMosaic.ValueIdx

end
-- ==== Proof.LibKeepdimsColumn.lean ====
/-
  A vector of `n` entries reshaped to a column `[n, 1]` (what a row reduction with keepdims leaves): the entry at
  `(k, 0)` of the column is entry `k` of the vector. Both sit at row-major position `k`.
-/
import Idealize.ShloMosaic.Lib.ValueIdx
import Idealize.ShloMosaic.Lib.Pipeline.Value

namespace Idealize.ShloMosaic.ValueIdx

variable {α : Type}

/-- An `[n]` array cast to `[n, 1]` reads, at `(k, u)`, the operand at `k`, whatever the unit coordinate `u`.
    (With `n = 1` this is also the cast `[1] → [1, 1]`.) -/
theorem shapeCast_a_a1_apply {n : ℕ} (x : (⟨1, ![n]⟩ : Shape).Idx → α) (h : (⟨1, ![n]⟩ : Shape).ShapeCasts ⟨2, ![n, 1]⟩)
    (k : Fin n) (u : Fin 1) : shapeCast ⟨2, ![n, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Idealize.ShloMosaic.ValueIdx
-- ==== Proof.KerReadA.lean ====
/-
  The kernel's sums and products read at coordinates, on the extended reals.

  Three of the kernel body's operations, read as matrices: the column-wise l2 normalisation of a [512, 64] basis is
  x[c,k] / (eps + sqrt (sum_c' x[c',k]^2)); the basis update is sum_n f[c,n] * (a[n,k] / (eps + sum_n' a[n',k])); the
  reconstruction is sum_k b[c,k] * a[n,k]. A column sum kept as a [1, 64] row and broadcast back over the rows reads
  the sum of column k at every (c, k); a matrix product into the zero matrix is the sum over its one contracted axis,
  re-indexed by that axis's coordinate; the narrowing to the 16-bit format changes nothing on the extended reals.
-/
import proofs.«108734_j4166118277546_1_alg».proof.Proof.KerStages
import proofs.«108734_j4166118277546_1_alg».proof.Proof.Spec
import proofs.«108734_j4166118277546_1_alg».proof.Proof.LibKeepdimsSums
import proofs.«108734_j4166118277546_1_alg».proof.Proof.LibKeepdimsColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx Idealize.SL.Sem Cert.Spec

namespace Cert.KernelIdeal.Read
open Cert.KernelIdeal Cert.KernelIdeal.Stage Cert.KernelIdeal.Gen

/-! ## The column-wise l2 normalisation -/

theorem rd2_kNorm (x : FVec Ideal S512x64 .f32) : rd2 (kNorm x) = colNorm (rd2 x) := by
  funext c k
  show kNorm x (ix2 c k) = Ideal.div (x (ix2 c k)) (eps + Ideal.sqrt (∑ c', x (ix2 c' k) * x (ix2 c' k)))
  unfold kNorm
  rw [divf_apply, broadcastTo_1b_ab_apply]
  show Ideal.div (x (ix2 c k)) (Ideal.ofBits .f32 0x358637BD#32 + Ideal.sqrt (shapeCast S1x64 (multiReduction (F := Ideal) .add [0] S64 (mulf x x) 0x00000000#32 reduces_S512x64_S64 (.inl rfl) rfl) shapeCasts_S64_S1x64 (ix2 (0 : Fin 1) k))) = _
  rw [shapeCast_a_1a_apply]
  exact congrArg (fun s => Ideal.div (x (ix2 c k)) (eps + Ideal.sqrt s))
    (multiReduction_add_cols (mulf x x) 0x00000000#32 reduces_S512x64_S64 (.inl rfl) rfl k)

/-! ## The column-wise l1 normalisation inside the update -/

/-- Each entry of a [4096, 64] matrix over (eps + its column's sum). -/
theorem kL1_apply (a : FVec Ideal S4096x64 .f32) (n : Fin 4096) (k : Fin 64) :
    kL1 a (ix2 n k) = Ideal.div (a (ix2 n k)) (eps + ∑ n', a (ix2 n' k)) := by
  unfold kL1
  rw [divf_apply, broadcastTo_1b_ab_apply]
  show Ideal.div (a (ix2 n k)) (Ideal.ofBits .f32 0x358637BD#32 + shapeCast S1x64 (multiReduction (F := Ideal) .add [0] S64 a 0x00000000#32 reduces_S4096x64_S64 (.inl rfl) rfl) shapeCasts_S64_S1x64 (ix2 (0 : Fin 1) k)) = _
  rw [shapeCast_a_1a_apply]
  exact congrArg (fun s => Ideal.div (a (ix2 n k)) (eps + s))
    (multiReduction_add_cols a 0x00000000#32 reduces_S4096x64_S64 (.inl rfl) rfl k)

/-! ## The update's product: [512, 4096] times [4096, 64], contracting the left operand's columns with the right's rows -/

theorem lhs_upd_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_upd_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhs_upd_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhs_upd_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The product f g into the zero matrix at (c, k): the sum over n of f[c,n] g[n,k]. -/
theorem upd_matmul_apply (f : FVec Ideal S512x4096 .bf16) (g : FVec Ideal S4096x64 .bf16) (c : Fin 512) (k : Fin 64) :
    matmul dot_S512x4096_S4096x64_S512x64_1_0_0_1_n_n none f g (constant (F := Ideal) S512x64 .f32 0x00000000#32) (ix2 c k)
      = ∑ n : Fin 4096, f (ix2 c n) * g (ix2 n k) := by
  simp only [matmul]
  rw [Ideal.matmul_constant_zero_apply, ← Equiv.sum_comp (ValueIdx.contrEquiv1 dot_S512x4096_S4096x64_S512x64_1_0_0_1_n_n 4096 rfl rfl).symm]
  refine Finset.sum_congr rfl fun n _ => ?_
  have hk := ValueIdx.contrEquiv1_symm_val dot_S512x4096_S4096x64_S512x64_1_0_0_1_n_n 4096 rfl rfl n
  have el : dot_S512x4096_S4096x64_S512x64_1_0_0_1_n_n.lhsIdx (ix2 c k) ((ValueIdx.contrEquiv1 dot_S512x4096_S4096x64_S512x64_1_0_0_1_n_n 4096 rfl rfl).symm n) = ix2 c n := funext fun a => Fin.ext (by
    match a with
    | ⟨0, _⟩ => exact lhs_upd_0 _ _
    | ⟨1, _⟩ => exact (lhs_upd_1 _ _).trans hk)
  have er : dot_S512x4096_S4096x64_S512x64_1_0_0_1_n_n.rhsIdx (ix2 c k) ((ValueIdx.contrEquiv1 dot_S512x4096_S4096x64_S512x64_1_0_0_1_n_n 4096 rfl rfl).symm n) = ix2 n k := funext fun a => Fin.ext (by
    match a with
    | ⟨0, _⟩ => exact (rhs_upd_0 _ _).trans hk
    | ⟨1, _⟩ => exact rhs_upd_1 _ _)
  rw [el, er]

theorem rd2_kUpd (f : FVec Ideal S512x4096 .bf16) (a : FVec Ideal S4096x64 .f32) : rd2 (kUpd f a) = update (rd2 f) (colL1 (rd2 a)) := by
  funext c k
  show kUpd f a (ix2 c k) = ∑ n : Fin 4096, f (ix2 c n) * Ideal.div (a (ix2 n k)) (eps + ∑ n', a (ix2 n' k))
  unfold kUpd
  rw [upd_matmul_apply]
  refine Finset.sum_congr rfl fun n _ => ?_
  rw [truncf_apply, kL1_apply]

/-! ## The reconstruction's product: [512, 64] times the transpose of [4096, 64], contracting the two column axes -/

theorem lhs_rec_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem lhs_rec_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem rhs_rec_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem rhs_rec_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- The product b g^T into the zero matrix at (c, n): the sum over k of b[c,k] g[n,k]. -/
theorem rec_matmul_apply (b : FVec Ideal S512x64 .bf16) (g : FVec Ideal S4096x64 .bf16) (c : Fin 512) (n : Fin 4096) :
    matmul dot_S512x64_S4096x64_S512x4096_1_1_0_0_n_n none b g (constant (F := Ideal) S512x4096 .f32 0x00000000#32) (ix2 c n)
      = ∑ k : Fin 64, b (ix2 c k) * g (ix2 n k) := by
  simp only [matmul]
  rw [Ideal.matmul_constant_zero_apply, ← Equiv.sum_comp (ValueIdx.contrEquiv1 dot_S512x64_S4096x64_S512x4096_1_1_0_0_n_n 64 rfl rfl).symm]
  refine Finset.sum_congr rfl fun k _ => ?_
  have hk := ValueIdx.contrEquiv1_symm_val dot_S512x64_S4096x64_S512x4096_1_1_0_0_n_n 64 rfl rfl k
  have el : dot_S512x64_S4096x64_S512x4096_1_1_0_0_n_n.lhsIdx (ix2 c n) ((ValueIdx.contrEquiv1 dot_S512x64_S4096x64_S512x4096_1_1_0_0_n_n 64 rfl rfl).symm k) = ix2 c k := funext fun a => Fin.ext (by
    match a with
    | ⟨0, _⟩ => exact lhs_rec_0 _ _
    | ⟨1, _⟩ => exact (lhs_rec_1 _ _).trans hk)
  have er : dot_S512x64_S4096x64_S512x4096_1_1_0_0_n_n.rhsIdx (ix2 c n) ((ValueIdx.contrEquiv1 dot_S512x64_S4096x64_S512x4096_1_1_0_0_n_n 64 rfl rfl).symm k) = ix2 n k := funext fun a => Fin.ext (by
    match a with
    | ⟨0, _⟩ => exact rhs_rec_0 _ _
    | ⟨1, _⟩ => exact (rhs_rec_1 _ _).trans hk)
  rw [el, er]

theorem rd2_kRecon (b : FVec Ideal S512x64 .f32) (a : FVec Ideal S4096x64 .f32) : rd2 (kRecon b a) = recon (rd2 b) (rd2 a) := by
  funext c n
  show kRecon b a (ix2 c n) = ∑ k : Fin 64, b (ix2 c k) * a (ix2 n k)
  unfold kRecon
  rw [rec_matmul_apply]
  rfl

end Cert.KernelIdeal.Read

end
-- ==== Proof.KerReadB.lean ====
/-
  The attention of one EM iteration as the kernel body computes it, read at coordinates on the extended reals.

  The scores are the product f^T b: entry (n, k) is the sum over the 512 channels c of f[c, n] * b[c, k] (the change of
  format of b is the identity on the extended reals, and the accumulator is zero). The row softmax subtracts from each
  row its maximum (folded from minus infinity, and compared once more with minus infinity), exponentiates, and divides
  each entry by its row's sum of exponentials. Together: the attention is the row softmax of the scores.
-/
import proofs.«108734_j4166118277546_1_alg».proof.Proof.KerStages
import proofs.«108734_j4166118277546_1_alg».proof.Proof.Spec
import proofs.«108734_j4166118277546_1_alg».proof.Proof.LibKeepdimsSums
import proofs.«108734_j4166118277546_1_alg».proof.Proof.LibKeepdimsColumn
import Idealize.ShloMosaic.PureOps.Ideal.Laws
import Idealize.ShloMosaic.Lib.ValueIdx

noncomputable section

open scoped BigOperators
open Idealize.ShloMosaic Idealize.ShloMosaic.ValueIdx Idealize.SL.Sem Cert.Spec

namespace Cert.KernelIdeal.Read
open Cert.KernelIdeal Cert.KernelIdeal.Stage
open Cert.KernelIdeal.Gen

/-! ## The scores: the product f^T b at (n, k) -/

/-- The left operand's contracted axis (its channels) carries the contraction position. -/
theorem lhs_scores_0 (i : S4096x64.Idx) (q : dot_S512x4096_S512x64_S4096x64_0_0_1_1_n_n.contr.Idx) :
    (dot_S512x4096_S512x64_S4096x64_0_0_1_1_n_n.lhsIdx i q 0).val = (q ⟨0, by decide⟩).val :=
  dot_S512x4096_S512x64_S4096x64_0_0_1_1_n_n.lhsIdx_val_of_single rfl i q
/-- The left operand's free axis is the result's row. -/
theorem lhs_scores_1 (i : S4096x64.Idx) (q : dot_S512x4096_S512x64_S4096x64_0_0_1_1_n_n.contr.Idx) :
    (dot_S512x4096_S512x64_S4096x64_0_0_1_1_n_n.lhsIdx i q 1).val = (i 0).val := by
  unfold DotDims.lhsIdx
  rw [dif_neg (show ¬(1 : Fin S512x4096.rank) ∈ dot_S512x4096_S512x64_S4096x64_0_0_1_1_n_n.lhsBatch by decide), dif_pos (show (1 : Fin S512x4096.rank) ∈ dot_S512x4096_S512x64_S4096x64_0_0_1_1_n_n.lhsNonContracting by decide)]
  rfl
/-- The right operand's contracted axis (its channels) carries the contraction position. -/
theorem rhs_scores_0 (i : S4096x64.Idx) (q : dot_S512x4096_S512x64_S4096x64_0_0_1_1_n_n.contr.Idx) :
    (dot_S512x4096_S512x64_S4096x64_0_0_1_1_n_n.rhsIdx i q 0).val = (q ⟨0, by decide⟩).val :=
  dot_S512x4096_S512x64_S4096x64_0_0_1_1_n_n.rhsIdx_val_of_single rfl i q
/-- The right operand's free axis is the result's column. -/
theorem rhs_scores_1 (i : S4096x64.Idx) (q : dot_S512x4096_S512x64_S4096x64_0_0_1_1_n_n.contr.Idx) :
    (dot_S512x4096_S512x64_S4096x64_0_0_1_1_n_n.rhsIdx i q 1).val = (i 1).val := by
  unfold DotDims.rhsIdx
  rw [dif_neg (show ¬(1 : Fin S512x64.rank) ∈ dot_S512x4096_S512x64_S4096x64_0_0_1_1_n_n.rhsBatch by decide), dif_pos (show (1 : Fin S512x64.rank) ∈ dot_S512x4096_S512x64_S4096x64_0_0_1_1_n_n.rhsNonContracting by decide)]
  rfl

/-- The product into the zero accumulator, at (n, k): the sum over the channels of f[c, n] * b[c, k]. -/
theorem matmul_scores_apply (f : FVec Ideal S512x4096 .bf16) (b : FVec Ideal S512x64 .bf16) (n : Fin 4096) (k : Fin 64) :
    matmul dot_S512x4096_S512x64_S4096x64_0_0_1_1_n_n none f b (constant (F := Ideal) S4096x64 .f32 0x00000000#32) (ix2 n k)
      = ∑ c : Fin 512, f (ix2 c n) * b (ix2 c k) := by
  simp only [matmul]
  rw [Ideal.matmul_constant_zero_apply, ← Equiv.sum_comp (contrEquiv1 dot_S512x4096_S512x64_S4096x64_0_0_1_1_n_n 512 rfl rfl).symm]
  refine Finset.sum_congr rfl fun c _ => ?_
  have hc := contrEquiv1_symm_val dot_S512x4096_S512x64_S4096x64_0_0_1_1_n_n 512 rfl rfl c
  have el : dot_S512x4096_S512x64_S4096x64_0_0_1_1_n_n.lhsIdx (ix2 n k) ((contrEquiv1 dot_S512x4096_S512x64_S4096x64_0_0_1_1_n_n 512 rfl rfl).symm c) = ix2 c n := funext fun a => Fin.ext (by
    match a with
    | ⟨0, _⟩ => exact (lhs_scores_0 _ _).trans hc
    | ⟨1, _⟩ => exact lhs_scores_1 _ _)
  have er : dot_S512x4096_S512x64_S4096x64_0_0_1_1_n_n.rhsIdx (ix2 n k) ((contrEquiv1 dot_S512x4096_S512x64_S4096x64_0_0_1_1_n_n 512 rfl rfl).symm c) = ix2 c k := funext fun a => Fin.ext (by
    match a with
    | ⟨0, _⟩ => exact (rhs_scores_0 _ _).trans hc
    | ⟨1, _⟩ => exact rhs_scores_1 _ _)
  rw [el, er]

/-- The scores the body computes are f^T b. -/
theorem rd2_scores (f : FVec Ideal S512x4096 .bf16) (b : FVec Ideal S512x64 .f32) :
    rd2 (matmul dot_S512x4096_S512x64_S4096x64_0_0_1_1_n_n none f (truncf .bf16 b bitsLt_bf16_f32) (constant (F := Ideal) S4096x64 .f32 0x00000000#32))
      = scores (rd2 f) (rd2 b) := by
  funext n k
  exact matmul_scores_apply f (truncf .bf16 b bitsLt_bf16_f32) n k

/-! ## The row softmax -/

variable {φ : FTy}

/-- The maximum of an `[a, b]` matrix over its second axis, at row `p`: the fold of `max` from the accumulator's value
    over the row's entries. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun n => src (ix2 p n)) :=
  (Ideal.multiReduction_maximumf_single src acc h hφ hacc (ix1 p)).trans
    (Finset.fold_congr fun n _ => congrArg src (funext fun ax => Fin.ext (by
      match ax with
      | ⟨0, _⟩ => rfl
      | ⟨1, _⟩ => rfl)))

/-- The row maxima as the body spreads them over the rows: each row's maximum, taken from minus infinity and compared
    once more with minus infinity, repeated along the row. -/
def kRowMax (s : FVec Ideal S4096x64 .f32) : FVec Ideal S4096x64 .f32 :=
  broadcastTo S4096x64 (shapeCast S4096x1 (maximumf (broadcast S4096 (Scalar.ofBits .f32 0xFF800000#32))
    (multiReduction .maximumf [1] S4096 s 0xFF800000#32 reduces_S4096x64_S4096 (.inl rfl) rfl)) shapeCasts_S4096_S4096x1) broadcasts_S4096x1_S4096x64

/-- The exponentials of the entries minus their row's maximum. -/
def kRowExp (s : FVec Ideal S4096x64 .f32) : FVec Ideal S4096x64 .f32 := exp (subf s (kRowMax s))

/-- The row sums of a matrix as the body spreads them over the rows. -/
def kRowSum (e : FVec Ideal S4096x64 .f32) : FVec Ideal S4096x64 .f32 :=
  broadcastTo S4096x64 (shapeCast S4096x1 (multiReduction .add [1] S4096 e 0x00000000#32 reduces_S4096x64_S4096 (.inl rfl) rfl)
    shapeCasts_S4096_S4096x1) broadcasts_S4096x1_S4096x64

/-- The body's softmax in these words. -/
theorem kSoftmax_eq (s : FVec Ideal S4096x64 .f32) : kSoftmax s = divf (kRowExp s) (kRowSum (kRowExp s)) := rfl

/-- The spread row maximum at (n, k) is the row maximum of row n. -/
theorem kRowMax_apply (s : FVec Ideal S4096x64 .f32) (n : Fin 4096) (k : Fin 64) : kRowMax s (ix2 n k) = rowMax (rd2 s) n := by
  unfold kRowMax
  refine (broadcastTo_a1_ab_apply _ _ n k).trans ((shapeCast_a_a1_apply _ _ n (0 : Fin 1)).trans ?_)
  show max (Ideal.ofBits .f32 0xFF800000#32) (multiReduction .maximumf [1] S4096 s 0xFF800000#32 reduces_S4096x64_S4096 (.inl rfl) rfl (ix1 n)) = _
  exact congrArg (max (Ideal.ofBits .f32 0xFF800000#32)) (multiReduction_max_rows s _ _ _ _ n)

/-- The exponentials at (n, k). -/
theorem kRowExp_apply (s : FVec Ideal S4096x64 .f32) (n : Fin 4096) (k : Fin 64) : kRowExp s (ix2 n k) = rowExp (rd2 s) n k :=
  congrArg (fun m => Ideal.exp (s (ix2 n k) - m)) (kRowMax_apply s n k)

/-- The spread row sum at (n, k) is the sum of row n. -/
theorem kRowSum_apply (e : FVec Ideal S4096x64 .f32) (n : Fin 4096) (k : Fin 64) : kRowSum e (ix2 n k) = ∑ k' : Fin 64, e (ix2 n k') := by
  unfold kRowSum
  exact (broadcastTo_a1_ab_apply _ _ n k).trans ((shapeCast_a_a1_apply _ _ n (0 : Fin 1)).trans (multiReduction_add_rows e _ _ _ _ n))

/-- The body's softmax of any matrix is the row softmax. -/
theorem rd2_kSoftmax (s : FVec Ideal S4096x64 .f32) : rd2 (kSoftmax s) = softmaxRows (rd2 s) := by
  funext n k
  show kSoftmax s (ix2 n k) = Ideal.div (rowExp (rd2 s) n k) (∑ k', rowExp (rd2 s) n k')
  rw [kSoftmax_eq]
  show Ideal.div (kRowExp s (ix2 n k)) (kRowSum (kRowExp s) (ix2 n k)) = _
  rw [kRowExp_apply, kRowSum_apply]
  exact congrArg (Ideal.div (rowExp (rd2 s) n k)) (Finset.sum_congr rfl fun k' _ => kRowExp_apply s n k')

/-! ## The attention -/

/-- The attention the body computes is the row softmax of the scores f^T b. -/
theorem rd2_kAttn (f : FVec Ideal S512x4096 .bf16) (b : FVec Ideal S512x64 .f32) : rd2 (kAttn f b) = attn (rd2 f) (rd2 b) := by
  unfold kAttn attn
  rw [rd2_kSoftmax, rd2_scores]

end Cert.KernelIdeal.Read

end
-- ==== Proof.RefReadA.lean ====
/-
  The reference's two column normalisations read slice by slice at the ideal values. Slice t of the batched
  normalisation, at (c, k), is X[t,c,k] / (eps + sqrt (sum_c' X[t,c',k]^2)): the host sum over the middle axis starts
  from the constant 0, which adds nothing; the sum, its square root and the eps added to it live on [16, 64] and
  [16, 1, 64] and are repeated along the middle axis before the division. The initial basis is normalised the same way
  on its single slice and then repeated for each batch element, so every slice of it is the normalised slice 0.
-/
import proofs.«108734_j4166118277546_1_alg».proof.Proof.RefStages
import proofs.«108734_j4166118277546_1_alg».proof.Proof.Spec
import Idealize.ShloMosaic.Lib.Pipeline.Value
import Idealize.ShloMosaic.Lib.ValueIdx
import Idealize.ShloMosaic.PureOps.Ideal.Laws

noncomputable section

open scoped BigOperators

open Idealize.ShloMosaic Idealize.ShloMosaic.ValueIdx Idealize.SL.Sem Cert.Spec

namespace Cert.ReferenceIdeal.Read

open Cert.ReferenceIdeal Cert.ReferenceIdeal.Gen Cert.ReferenceIdeal.Stage

/-- The host sum over the middle axis of a [16, 512, 64] array, at (t, k): the initial value plus the sum over c. -/
theorem reduceAdd_mid16 (x : FVec Ideal S16x512x64 .f32) (init : FVec Ideal S_ .f32) (t : Fin 16) (k : Fin 64) :
    Host.reduceAdd x init reducesTo_S16x512x64_S16x64_d1 h_S_ (ix2 t k) = init ix0 + ∑ c : Fin 512, x (ix3 t c k) := by
  simp only [Host.reduceAdd, Ideal.hostReduceAdd_def]
  rw [Ideal.hostReduceAdd_single reducesTo_S16x512x64_S16x64_d1 (by decide)]
  refine congrArg₂ (· + ·) (congrArg init (eq_ix0 _)) (Finset.sum_congr rfl fun c _ => ?_)
  exact congrArg x (funext fun a => Fin.ext (by match a with | ⟨0, _⟩ => rfl | ⟨1, _⟩ => rfl | ⟨2, _⟩ => rfl))

/-- The same on a [1, 512, 64] array. -/
theorem reduceAdd_mid1 (x : FVec Ideal S1x512x64 .f32) (init : FVec Ideal S_ .f32) (t : Fin 1) (k : Fin 64) :
    Host.reduceAdd x init reducesTo_S1x512x64_S1x64_d1 h_S_ (ix2 t k) = init ix0 + ∑ c : Fin 512, x (ix3 t c k) := by
  simp only [Host.reduceAdd, Ideal.hostReduceAdd_def]
  rw [Ideal.hostReduceAdd_single reducesTo_S1x512x64_S1x64_d1 (by decide)]
  refine congrArg₂ (· + ·) (congrArg init (eq_ix0 _)) (Finset.sum_congr rfl fun c _ => ?_)
  exact congrArg x (funext fun a => Fin.ext (by match a with | ⟨0, _⟩ => rfl | ⟨1, _⟩ => rfl | ⟨2, _⟩ => rfl))

/-- A [16, 64] array placed on [16, 1, 64] is read at (t, 0, k) from (t, k). -/
theorem bcast_16x64_16x1x64 {α : Type} (y : S16x64.Idx → α) (t : Fin 16) (z : Fin 1) (k : Fin 64) :
    broadcastInDim S16x1x64 ![0, 2] bcast_S16x64_S16x1x64_0_2 y (ix3 t z k) = y (ix2 t k) :=
  broadcastInDim_apply _ bcast_S16x64_S16x1x64_0_2 y (ix3 t z k) (ix2 t k) (fun a => match a with
    | ⟨0, _⟩ => by show t.val = if (16 : Nat) = 1 then 0 else t.val; rw [if_neg (by decide)]
    | ⟨1, _⟩ => by show k.val = if (64 : Nat) = 1 then 0 else k.val; rw [if_neg (by decide)])

/-- A [1, 64] array placed on [1, 1, 64] is read at (t, 0, k) from (0, k). -/
theorem bcast_1x64_1x1x64 {α : Type} (y : S1x64.Idx → α) (t z : Fin 1) (k : Fin 64) :
    broadcastInDim S1x1x64 ![0, 2] bcast_S1x64_S1x1x64_0_2 y (ix3 t z k) = y (ix2 (0 : Fin 1) k) :=
  broadcastInDim_apply _ bcast_S1x64_S1x1x64_0_2 y (ix3 t z k) (ix2 (0 : Fin 1) k) (fun a => match a with
    | ⟨0, _⟩ => by show 0 = if (1 : Nat) = 1 then 0 else t.val; rw [if_pos rfl]
    | ⟨1, _⟩ => by show k.val = if (64 : Nat) = 1 then 0 else k.val; rw [if_neg (by decide)])

/-- A scalar repeated over [16, 1, 64] is read anywhere from its one index. -/
theorem bcast_scalar_16x1x64 {α : Type} (y : S_.Idx → α) (j : S16x1x64.Idx) :
    broadcastInDim S16x1x64 ![] bcast_S_S16x1x64 y j = y ix0 :=
  broadcastInDim_apply _ bcast_S_S16x1x64 y j ix0 (fun a => a.elim0)

/-- A scalar repeated over [1, 1, 64] is read anywhere from its one index. -/
theorem bcast_scalar_1x1x64 {α : Type} (y : S_.Idx → α) (j : S1x1x64.Idx) :
    broadcastInDim S1x1x64 ![] bcast_S_S1x1x64 y j = y ix0 :=
  broadcastInDim_apply _ bcast_S_S1x1x64 y j ix0 (fun a => a.elim0)

/-- A [16, 1, 64] array repeated along the middle axis is read at (t, c, k) from (t, 0, k). -/
theorem bcast_16x1x64_16x512x64 {α : Type} (y : S16x1x64.Idx → α) (t : Fin 16) (c : Fin 512) (k : Fin 64) :
    broadcastInDim S16x512x64 ![0, 1, 2] bcast_S16x1x64_S16x512x64_0_1_2 y (ix3 t c k) = y (ix3 t (0 : Fin 1) k) :=
  broadcastInDim_apply _ bcast_S16x1x64_S16x512x64_0_1_2 y (ix3 t c k) (ix3 t (0 : Fin 1) k) (fun a => match a with
    | ⟨0, _⟩ => by show t.val = if (16 : Nat) = 1 then 0 else t.val; rw [if_neg (by decide)]
    | ⟨1, _⟩ => by show 0 = if (1 : Nat) = 1 then 0 else c.val; rw [if_pos rfl]
    | ⟨2, _⟩ => by show k.val = if (64 : Nat) = 1 then 0 else k.val; rw [if_neg (by decide)])

/-- A [1, 1, 64] array repeated along the middle axis is read at (t, c, k) from (0, 0, k). -/
theorem bcast_1x1x64_1x512x64 {α : Type} (y : S1x1x64.Idx → α) (t : Fin 1) (c : Fin 512) (k : Fin 64) :
    broadcastInDim S1x512x64 ![0, 1, 2] bcast_S1x1x64_S1x512x64_0_1_2 y (ix3 t c k) = y (ix3 (0 : Fin 1) (0 : Fin 1) k) :=
  broadcastInDim_apply _ bcast_S1x1x64_S1x512x64_0_1_2 y (ix3 t c k) (ix3 (0 : Fin 1) (0 : Fin 1) k) (fun a => match a with
    | ⟨0, _⟩ => by show 0 = if (1 : Nat) = 1 then 0 else t.val; rw [if_pos rfl]
    | ⟨1, _⟩ => by show 0 = if (1 : Nat) = 1 then 0 else c.val; rw [if_pos rfl]
    | ⟨2, _⟩ => by show k.val = if (64 : Nat) = 1 then 0 else k.val; rw [if_neg (by decide)])

/-- A [1, 512, 64] array repeated for each of 16 batch elements is read at (t, c, k) from (0, c, k). -/
theorem bcast_1x512x64_16x512x64 {α : Type} (y : S1x512x64.Idx → α) (t : Fin 16) (c : Fin 512) (k : Fin 64) :
    broadcastInDim S16x512x64 ![0, 1, 2] bcast_S1x512x64_S16x512x64_0_1_2 y (ix3 t c k) = y (ix3 (0 : Fin 1) c k) :=
  broadcastInDim_apply _ bcast_S1x512x64_S16x512x64_0_1_2 y (ix3 t c k) (ix3 (0 : Fin 1) c k) (fun a => match a with
    | ⟨0, _⟩ => by show 0 = if (1 : Nat) = 1 then 0 else t.val; rw [if_pos rfl]
    | ⟨1, _⟩ => by show c.val = if (512 : Nat) = 1 then 0 else c.val; rw [if_neg (by decide)]
    | ⟨2, _⟩ => by show k.val = if (64 : Nat) = 1 then 0 else k.val; rw [if_neg (by decide)])

/-- Slice t of the batched column normalisation is the column normalisation of slice t. -/
theorem rd3_rNorm16 (X : FVec Ideal S16x512x64 .f32) (t : Fin 16) : rd3 (rNorm16 X) t = colNorm (rd3 X t) := by
  funext c k
  show Ideal.div (X (ix3 t c k))
      (broadcastInDim S16x512x64 ![0, 1, 2] bcast_S16x1x64_S16x512x64_0_1_2
        (addf (broadcastInDim S16x1x64 ![] bcast_S_S16x1x64 (constant S_ .f32 0x358637BD#32 : FVec Ideal S_ .f32))
          (Host.sqrt (broadcastInDim S16x1x64 ![0, 2] bcast_S16x64_S16x1x64_0_2
            (Host.reduceAdd (mulf X X) (constant S_ .f32 0x00000000#32 : FVec Ideal S_ .f32)
              reducesTo_S16x512x64_S16x64_d1 h_S_)))) (ix3 t c k))
    = Ideal.div (X (ix3 t c k)) (eps + Ideal.sqrt (∑ c', X (ix3 t c' k) * X (ix3 t c' k)))
  rw [bcast_16x1x64_16x512x64]
  show Ideal.div (X (ix3 t c k))
      (broadcastInDim S16x1x64 ![] bcast_S_S16x1x64 (constant S_ .f32 0x358637BD#32 : FVec Ideal S_ .f32) (ix3 t (0 : Fin 1) k)
        + Ideal.sqrt (broadcastInDim S16x1x64 ![0, 2] bcast_S16x64_S16x1x64_0_2
            (Host.reduceAdd (mulf X X) (constant S_ .f32 0x00000000#32 : FVec Ideal S_ .f32)
              reducesTo_S16x512x64_S16x64_d1 h_S_) (ix3 t (0 : Fin 1) k)))
    = _
  rw [bcast_scalar_16x1x64, bcast_16x64_16x1x64, reduceAdd_mid16]
  show Ideal.div (X (ix3 t c k))
      (eps + Ideal.sqrt (Ideal.ofBits .f32 0x00000000#32 + ∑ c' : Fin 512, X (ix3 t c' k) * X (ix3 t c' k))) = _
  rw [Ideal.ofBits_zero_f32, zero_add]

/-- Every slice of the repeated, normalised initial basis is the column normalisation of the basis's one slice. -/
theorem rd3_rInit (Bs : FVec Ideal S1x512x64 .f32) (t : Fin 16) : rd3 (rInit Bs) t = colNorm (rd3 Bs (0 : Fin 1)) := by
  funext c k
  show broadcastInDim S16x512x64 ![0, 1, 2] bcast_S1x512x64_S16x512x64_0_1_2
      (Host.divf Bs (broadcastInDim S1x512x64 ![0, 1, 2] bcast_S1x1x64_S1x512x64_0_1_2
        (addf (broadcastInDim S1x1x64 ![] bcast_S_S1x1x64 (constant S_ .f32 0x358637BD#32 : FVec Ideal S_ .f32))
          (Host.sqrt (broadcastInDim S1x1x64 ![0, 2] bcast_S1x64_S1x1x64_0_2
            (Host.reduceAdd (mulf Bs Bs) (constant S_ .f32 0x00000000#32 : FVec Ideal S_ .f32)
              reducesTo_S1x512x64_S1x64_d1 h_S_)))))) (ix3 t c k)
    = Ideal.div (Bs (ix3 (0 : Fin 1) c k)) (eps + Ideal.sqrt (∑ c', Bs (ix3 (0 : Fin 1) c' k) * Bs (ix3 (0 : Fin 1) c' k)))
  rw [bcast_1x512x64_16x512x64]
  show Ideal.div (Bs (ix3 (0 : Fin 1) c k))
      (broadcastInDim S1x512x64 ![0, 1, 2] bcast_S1x1x64_S1x512x64_0_1_2
        (addf (broadcastInDim S1x1x64 ![] bcast_S_S1x1x64 (constant S_ .f32 0x358637BD#32 : FVec Ideal S_ .f32))
          (Host.sqrt (broadcastInDim S1x1x64 ![0, 2] bcast_S1x64_S1x1x64_0_2
            (Host.reduceAdd (mulf Bs Bs) (constant S_ .f32 0x00000000#32 : FVec Ideal S_ .f32)
              reducesTo_S1x512x64_S1x64_d1 h_S_)))) (ix3 (0 : Fin 1) c k))
    = _
  rw [bcast_1x1x64_1x512x64]
  show Ideal.div (Bs (ix3 (0 : Fin 1) c k))
      (broadcastInDim S1x1x64 ![] bcast_S_S1x1x64 (constant S_ .f32 0x358637BD#32 : FVec Ideal S_ .f32) (ix3 (0 : Fin 1) (0 : Fin 1) k)
        + Ideal.sqrt (broadcastInDim S1x1x64 ![0, 2] bcast_S1x64_S1x1x64_0_2
            (Host.reduceAdd (mulf Bs Bs) (constant S_ .f32 0x00000000#32 : FVec Ideal S_ .f32)
              reducesTo_S1x512x64_S1x64_d1 h_S_) (ix3 (0 : Fin 1) (0 : Fin 1) k)))
    = _
  rw [bcast_scalar_1x1x64, bcast_1x64_1x1x64, reduceAdd_mid1]
  show Ideal.div (Bs (ix3 (0 : Fin 1) c k))
      (eps + Ideal.sqrt (Ideal.ofBits .f32 0x00000000#32 + ∑ c' : Fin 512, Bs (ix3 (0 : Fin 1) c' k) * Bs (ix3 (0 : Fin 1) c' k))) = _
  rw [Ideal.ofBits_zero_f32, zero_add]

end Cert.ReferenceIdeal.Read

end
-- ==== Proof.RefReadB.lean ====
/-
  The reference's batched update and batched reconstruction read on one batch element, at the ideal instance where a
  float is an extended real. A batched contraction with batch axis 0 on both operands, read at (t, c, k), is the sum
  over the contracted coordinate of the products of the two operands' entries of slice t. For the update the right
  operand is the attention with every column of every slice divided by (eps + the column's sum): the host's sum over
  the middle axis starts from the constant 0, so it is the plain column sum, and the two broadcasts repeat it along
  the middle axis. So slice t of the update is sum_n f[c,n] * (a[n,k] / (eps + sum_n' a[n',k])) on slice t of the
  operands, and slice t of the reconstruction is sum_k b[c,k] * a[n,k].
-/
import proofs.«108734_j4166118277546_1_alg».proof.Proof.RefStages
import proofs.«108734_j4166118277546_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Idealize.SL.Sem Cert.Spec

namespace Cert.ReferenceIdeal.Read
open Cert.ReferenceIdeal Cert.ReferenceIdeal.Gen Cert.ReferenceIdeal.Stage

/-! ## The update's contraction: left axis 2 against right axis 1, batch axis 0 -/

theorem updL_0 (i : S16x512x64.Idx) (q : dot_S16x512x4096_S16x4096x64_S16x512x64_2_1_1_2_0_0.contr.Idx) :
    (dot_S16x512x4096_S16x4096x64_S16x512x64_2_1_1_2_0_0.lhsIdx i q 0).val = (i 0).val := by
  unfold DotDims.lhsIdx
  rw [dif_pos (show (0 : Fin S16x512x4096.rank) ∈ dot_S16x512x4096_S16x4096x64_S16x512x64_2_1_1_2_0_0.lhsBatch by decide)]
  rfl

theorem updL_1 (i : S16x512x64.Idx) (q : dot_S16x512x4096_S16x4096x64_S16x512x64_2_1_1_2_0_0.contr.Idx) :
    (dot_S16x512x4096_S16x4096x64_S16x512x64_2_1_1_2_0_0.lhsIdx i q 1).val = (i 1).val := by
  unfold DotDims.lhsIdx
  rw [dif_neg (show ¬(1 : Fin S16x512x4096.rank) ∈ dot_S16x512x4096_S16x4096x64_S16x512x64_2_1_1_2_0_0.lhsBatch by decide), dif_pos (show (1 : Fin S16x512x4096.rank) ∈ dot_S16x512x4096_S16x4096x64_S16x512x64_2_1_1_2_0_0.lhsNonContracting by decide)]
  rfl

theorem updL_2 (i : S16x512x64.Idx) (q : dot_S16x512x4096_S16x4096x64_S16x512x64_2_1_1_2_0_0.contr.Idx) :
    (dot_S16x512x4096_S16x4096x64_S16x512x64_2_1_1_2_0_0.lhsIdx i q 2).val = (q ⟨0, by decide⟩).val :=
  dot_S16x512x4096_S16x4096x64_S16x512x64_2_1_1_2_0_0.lhsIdx_val_of_single rfl i q

theorem updR_0 (i : S16x512x64.Idx) (q : dot_S16x512x4096_S16x4096x64_S16x512x64_2_1_1_2_0_0.contr.Idx) :
    (dot_S16x512x4096_S16x4096x64_S16x512x64_2_1_1_2_0_0.rhsIdx i q 0).val = (i 0).val := by
  unfold DotDims.rhsIdx
  rw [dif_pos (show (0 : Fin S16x4096x64.rank) ∈ dot_S16x512x4096_S16x4096x64_S16x512x64_2_1_1_2_0_0.rhsBatch by decide)]
  rfl

theorem updR_1 (i : S16x512x64.Idx) (q : dot_S16x512x4096_S16x4096x64_S16x512x64_2_1_1_2_0_0.contr.Idx) :
    (dot_S16x512x4096_S16x4096x64_S16x512x64_2_1_1_2_0_0.rhsIdx i q 1).val = (q ⟨0, by decide⟩).val :=
  dot_S16x512x4096_S16x4096x64_S16x512x64_2_1_1_2_0_0.rhsIdx_val_of_single rfl i q

theorem updR_2 (i : S16x512x64.Idx) (q : dot_S16x512x4096_S16x4096x64_S16x512x64_2_1_1_2_0_0.contr.Idx) :
    (dot_S16x512x4096_S16x4096x64_S16x512x64_2_1_1_2_0_0.rhsIdx i q 2).val = (i 2).val := by
  unfold DotDims.rhsIdx
  rw [dif_neg (show ¬(2 : Fin S16x4096x64.rank) ∈ dot_S16x512x4096_S16x4096x64_S16x512x64_2_1_1_2_0_0.rhsBatch by decide), dif_pos (show (2 : Fin S16x4096x64.rank) ∈ dot_S16x512x4096_S16x4096x64_S16x512x64_2_1_1_2_0_0.rhsNonContracting by decide)]
  rfl

/-- The update's contraction at (t, c, k): the sum over n of X[t,c,n] * Y[t,n,k]. -/
theorem updDot_apply (X : FVec Ideal S16x512x4096 .f32) (Y : FVec Ideal S16x4096x64 .f32) (t : Fin 16) (c : Fin 512) (k : Fin 64) :
    Host.dotGeneral dot_S16x512x4096_S16x4096x64_S16x512x64_2_1_1_2_0_0 none X Y (ix3 t c k) = ∑ n : Fin 4096, X (ix3 t c n) * Y (ix3 t n k) := by
  simp only [Host.dotGeneral]
  rw [Ideal.dotGeneral_apply, ← Equiv.sum_comp (contrEquiv1 dot_S16x512x4096_S16x4096x64_S16x512x64_2_1_1_2_0_0 4096 rfl rfl).symm]
  refine Finset.sum_congr rfl fun n _ => ?_
  have hn := contrEquiv1_symm_val dot_S16x512x4096_S16x4096x64_S16x512x64_2_1_1_2_0_0 4096 rfl rfl n
  have el : dot_S16x512x4096_S16x4096x64_S16x512x64_2_1_1_2_0_0.lhsIdx (ix3 t c k) ((contrEquiv1 dot_S16x512x4096_S16x4096x64_S16x512x64_2_1_1_2_0_0 4096 rfl rfl).symm n) = ix3 t c n := funext fun a => Fin.ext (by
    match a with
    | ⟨0, _⟩ => exact updL_0 _ _
    | ⟨1, _⟩ => exact updL_1 _ _
    | ⟨2, _⟩ => exact (updL_2 _ _).trans hn)
  have er : dot_S16x512x4096_S16x4096x64_S16x512x64_2_1_1_2_0_0.rhsIdx (ix3 t c k) ((contrEquiv1 dot_S16x512x4096_S16x4096x64_S16x512x64_2_1_1_2_0_0 4096 rfl rfl).symm n) = ix3 t n k := funext fun a => Fin.ext (by
    match a with
    | ⟨0, _⟩ => exact updR_0 _ _
    | ⟨1, _⟩ => exact (updR_1 _ _).trans hn
    | ⟨2, _⟩ => exact updR_2 _ _)
  rw [el, er]

/-! ## The reconstruction's contraction: left axis 2 against right axis 2, batch axis 0 -/

theorem recL_0 (i : S16x512x4096.Idx) (q : dot_S16x512x64_S16x4096x64_S16x512x4096_2_2_1_1_0_0.contr.Idx) :
    (dot_S16x512x64_S16x4096x64_S16x512x4096_2_2_1_1_0_0.lhsIdx i q 0).val = (i 0).val := by
  unfold DotDims.lhsIdx
  rw [dif_pos (show (0 : Fin S16x512x64.rank) ∈ dot_S16x512x64_S16x4096x64_S16x512x4096_2_2_1_1_0_0.lhsBatch by decide)]
  rfl

theorem recL_1 (i : S16x512x4096.Idx) (q : dot_S16x512x64_S16x4096x64_S16x512x4096_2_2_1_1_0_0.contr.Idx) :
    (dot_S16x512x64_S16x4096x64_S16x512x4096_2_2_1_1_0_0.lhsIdx i q 1).val = (i 1).val := by
  unfold DotDims.lhsIdx
  rw [dif_neg (show ¬(1 : Fin S16x512x64.rank) ∈ dot_S16x512x64_S16x4096x64_S16x512x4096_2_2_1_1_0_0.lhsBatch by decide), dif_pos (show (1 : Fin S16x512x64.rank) ∈ dot_S16x512x64_S16x4096x64_S16x512x4096_2_2_1_1_0_0.lhsNonContracting by decide)]
  rfl

theorem recL_2 (i : S16x512x4096.Idx) (q : dot_S16x512x64_S16x4096x64_S16x512x4096_2_2_1_1_0_0.contr.Idx) :
    (dot_S16x512x64_S16x4096x64_S16x512x4096_2_2_1_1_0_0.lhsIdx i q 2).val = (q ⟨0, by decide⟩).val :=
  dot_S16x512x64_S16x4096x64_S16x512x4096_2_2_1_1_0_0.lhsIdx_val_of_single rfl i q

theorem recR_0 (i : S16x512x4096.Idx) (q : dot_S16x512x64_S16x4096x64_S16x512x4096_2_2_1_1_0_0.contr.Idx) :
    (dot_S16x512x64_S16x4096x64_S16x512x4096_2_2_1_1_0_0.rhsIdx i q 0).val = (i 0).val := by
  unfold DotDims.rhsIdx
  rw [dif_pos (show (0 : Fin S16x4096x64.rank) ∈ dot_S16x512x64_S16x4096x64_S16x512x4096_2_2_1_1_0_0.rhsBatch by decide)]
  rfl

theorem recR_1 (i : S16x512x4096.Idx) (q : dot_S16x512x64_S16x4096x64_S16x512x4096_2_2_1_1_0_0.contr.Idx) :
    (dot_S16x512x64_S16x4096x64_S16x512x4096_2_2_1_1_0_0.rhsIdx i q 1).val = (i 2).val := by
  unfold DotDims.rhsIdx
  rw [dif_neg (show ¬(1 : Fin S16x4096x64.rank) ∈ dot_S16x512x64_S16x4096x64_S16x512x4096_2_2_1_1_0_0.rhsBatch by decide), dif_pos (show (1 : Fin S16x4096x64.rank) ∈ dot_S16x512x64_S16x4096x64_S16x512x4096_2_2_1_1_0_0.rhsNonContracting by decide)]
  rfl

theorem recR_2 (i : S16x512x4096.Idx) (q : dot_S16x512x64_S16x4096x64_S16x512x4096_2_2_1_1_0_0.contr.Idx) :
    (dot_S16x512x64_S16x4096x64_S16x512x4096_2_2_1_1_0_0.rhsIdx i q 2).val = (q ⟨0, by decide⟩).val :=
  dot_S16x512x64_S16x4096x64_S16x512x4096_2_2_1_1_0_0.rhsIdx_val_of_single rfl i q

/-- The reconstruction's contraction at (t, c, n): the sum over k of X[t,c,k] * Y[t,n,k]. -/
theorem recDot_apply (X : FVec Ideal S16x512x64 .f32) (Y : FVec Ideal S16x4096x64 .f32) (t : Fin 16) (c : Fin 512) (n : Fin 4096) :
    Host.dotGeneral dot_S16x512x64_S16x4096x64_S16x512x4096_2_2_1_1_0_0 none X Y (ix3 t c n) = ∑ k : Fin 64, X (ix3 t c k) * Y (ix3 t n k) := by
  simp only [Host.dotGeneral]
  rw [Ideal.dotGeneral_apply, ← Equiv.sum_comp (contrEquiv1 dot_S16x512x64_S16x4096x64_S16x512x4096_2_2_1_1_0_0 64 rfl rfl).symm]
  refine Finset.sum_congr rfl fun k _ => ?_
  have hk := contrEquiv1_symm_val dot_S16x512x64_S16x4096x64_S16x512x4096_2_2_1_1_0_0 64 rfl rfl k
  have el : dot_S16x512x64_S16x4096x64_S16x512x4096_2_2_1_1_0_0.lhsIdx (ix3 t c n) ((contrEquiv1 dot_S16x512x64_S16x4096x64_S16x512x4096_2_2_1_1_0_0 64 rfl rfl).symm k) = ix3 t c k := funext fun a => Fin.ext (by
    match a with
    | ⟨0, _⟩ => exact recL_0 _ _
    | ⟨1, _⟩ => exact recL_1 _ _
    | ⟨2, _⟩ => exact (recL_2 _ _).trans hk)
  have er : dot_S16x512x64_S16x4096x64_S16x512x4096_2_2_1_1_0_0.rhsIdx (ix3 t c n) ((contrEquiv1 dot_S16x512x64_S16x4096x64_S16x512x4096_2_2_1_1_0_0 64 rfl rfl).symm k) = ix3 t n k := funext fun a => Fin.ext (by
    match a with
    | ⟨0, _⟩ => exact recR_0 _ _
    | ⟨1, _⟩ => exact recR_1 _ _
    | ⟨2, _⟩ => exact (recR_2 _ _).trans hk)
  rw [el, er]

/-! ## The l1 normalisation over the middle axis -/

/-- The host's sum over the middle axis from the constant 0, at (t, k): the sum over n of A[t,n,k]. -/
theorem sumMid_apply (A : FVec Ideal S16x4096x64 .f32) (t : Fin 16) (k : Fin 64) :
    Host.reduceAdd A (constant S_ .f32 0x00000000#32 : FVec Ideal S_ .f32) reducesTo_S16x4096x64_S16x64_d1 h_S_ (ix2 t k)
      = ∑ n : Fin 4096, A (ix3 t n k) := by
  simp only [Host.reduceAdd, Ideal.hostReduceAdd_def]
  rw [Ideal.hostReduceAdd_single reducesTo_S16x4096x64_S16x64_d1 (by decide)]
  have h0 : (constant S_ .f32 0x00000000#32 : FVec Ideal S_ .f32) (Shape.Idx.first h_S_) = 0 := Ideal.ofBits_zero_f32
  rw [h0, zero_add]
  refine Finset.sum_congr rfl fun n _ => ?_
  exact congrArg A (funext fun a => Fin.ext (by match a with | ⟨0, _⟩ => rfl | ⟨1, _⟩ => rfl | ⟨2, _⟩ => rfl))

/-- The l1-normalised attention at (t, n, k): A[t,n,k] / (eps + sum_n' A[t,n',k]). -/
theorem rL1_apply (A : FVec Ideal S16x4096x64 .f32) (t : Fin 16) (n : Fin 4096) (k : Fin 64) :
    rL1 A (ix3 t n k) = Ideal.div (A (ix3 t n k)) (eps + ∑ n' : Fin 4096, A (ix3 t n' k)) := by
  unfold rL1
  show FloatOps.hostDivf (A (ix3 t n k)) _ = _
  rw [Ideal.hostDivf_def]
  refine congrArg (Ideal.div (A (ix3 t n k))) ?_
  refine (broadcastInDim_apply _ bcast_S16x1x64_S16x4096x64_0_1_2 _ (ix3 t n k) (ix3 t (0 : Fin 1) k) (fun a => match a with
    | ⟨0, _⟩ => by show t.val = if (16 : Nat) = 1 then 0 else t.val; rw [if_neg (by decide)]
    | ⟨1, _⟩ => by show 0 = if (1 : Nat) = 1 then 0 else n.val; rw [if_pos rfl]
    | ⟨2, _⟩ => by show k.val = if (64 : Nat) = 1 then 0 else k.val; rw [if_neg (by decide)])).trans ?_
  show FloatOps.addf _ _ = _
  rw [Ideal.addf_def]
  refine congrArg₂ (· + ·) ?_ ?_
  · exact broadcastInDim_apply _ bcast_S_S16x1x64 _ (ix3 t (0 : Fin 1) k) ix0 (fun a => a.elim0)
  · refine (broadcastInDim_apply _ bcast_S16x64_S16x1x64_0_2 _ (ix3 t (0 : Fin 1) k) (ix2 t k) (fun a => match a with
      | ⟨0, _⟩ => by show t.val = if (16 : Nat) = 1 then 0 else t.val; rw [if_neg (by decide)]
      | ⟨1, _⟩ => by show k.val = if (64 : Nat) = 1 then 0 else k.val; rw [if_neg (by decide)])).trans ?_
    exact sumMid_apply A t k

/-- Slice t of the l1-normalised attention is the column-wise l1 normalisation of slice t. -/
theorem rd3_rL1 (A : FVec Ideal S16x4096x64 .f32) (t : Fin 16) : rd3 (rL1 A) t = colL1 (rd3 A t) := by
  funext n k
  exact rL1_apply A t n k

/-! ## The two readings -/

theorem rd3_rUpd (F0 : FVec Ideal S16x512x4096 .f32) (A : FVec Ideal S16x4096x64 .f32) (t : Fin 16) : rd3 (rUpd F0 A) t = update (rd3 F0 t) (colL1 (rd3 A t)) := by
  funext c k
  show rUpd F0 A (ix3 t c k) = ∑ n : Fin 4096, F0 (ix3 t c n) * colL1 (rd3 A t) n k
  unfold rUpd
  rw [updDot_apply]
  refine Finset.sum_congr rfl fun n _ => ?_
  rw [rL1_apply]
  rfl

theorem rd3_rRecon (B : FVec Ideal S16x512x64 .f32) (A : FVec Ideal S16x4096x64 .f32) (t : Fin 16) : rd3 (rRecon B A) t = recon (rd3 B t) (rd3 A t) := by
  funext c n
  show rRecon B A (ix3 t c n) = ∑ k : Fin 64, B (ix3 t c k) * A (ix3 t n k)
  unfold rRecon
  exact recDot_apply B A t c n

end Cert.ReferenceIdeal.Read

end
-- ==== Proof.RefReadC.lean ====
/-
  The reference's attention read at coordinates. Slice t of the batched attention at (n, k) is the row softmax of the
  scores s[n,k] = sum_c F0[t,c,n] * B[t,c,k]: the exponential of s[n,k] minus the row's maximum M n, divided by the sum
  over k' of those exponentials, where M n is the maximum of minus infinity and the fold of max from minus infinity over
  the row.
-/
import proofs.«108734_j4166118277546_1_alg».proof.Proof.RefStages
import proofs.«108734_j4166118277546_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Idealize.SL.Sem Cert.Spec

namespace Cert.ReferenceIdeal.Read
open Cert.ReferenceIdeal Cert.ReferenceIdeal.Gen Cert.ReferenceIdeal.Stage

/-! ## The batched product f^T b at coordinates -/

/-- The left operand's batch coordinate is the result's. -/
theorem dotA_lhs0 (i : S16x4096x64.Idx) (q : dot_S16x512x4096_S16x512x64_S16x4096x64_1_1_2_2_0_0.contr.Idx) :
    (dot_S16x512x4096_S16x512x64_S16x4096x64_1_1_2_2_0_0.lhsIdx i q 0).val = (i 0).val := by
  unfold DotDims.lhsIdx
  rw [dif_pos (show (0 : Fin S16x512x4096.rank) ∈ dot_S16x512x4096_S16x512x64_S16x4096x64_1_1_2_2_0_0.lhsBatch by decide)]
  rfl
/-- The left operand's contracted coordinate is the contraction index. -/
theorem dotA_lhs1 (i : S16x4096x64.Idx) (q : dot_S16x512x4096_S16x512x64_S16x4096x64_1_1_2_2_0_0.contr.Idx) :
    (dot_S16x512x4096_S16x512x64_S16x4096x64_1_1_2_2_0_0.lhsIdx i q 1).val = (q ⟨0, by decide⟩).val :=
  dot_S16x512x4096_S16x512x64_S16x4096x64_1_1_2_2_0_0.lhsIdx_val_of_single rfl i q
/-- The left operand's free coordinate is the result's row. -/
theorem dotA_lhs2 (i : S16x4096x64.Idx) (q : dot_S16x512x4096_S16x512x64_S16x4096x64_1_1_2_2_0_0.contr.Idx) :
    (dot_S16x512x4096_S16x512x64_S16x4096x64_1_1_2_2_0_0.lhsIdx i q 2).val = (i 1).val := by
  unfold DotDims.lhsIdx
  rw [dif_neg (show ¬(2 : Fin S16x512x4096.rank) ∈ dot_S16x512x4096_S16x512x64_S16x4096x64_1_1_2_2_0_0.lhsBatch by decide),
    dif_pos (show (2 : Fin S16x512x4096.rank) ∈ dot_S16x512x4096_S16x512x64_S16x4096x64_1_1_2_2_0_0.lhsNonContracting by decide)]
  rfl
/-- The right operand's batch coordinate is the result's. -/
theorem dotA_rhs0 (i : S16x4096x64.Idx) (q : dot_S16x512x4096_S16x512x64_S16x4096x64_1_1_2_2_0_0.contr.Idx) :
    (dot_S16x512x4096_S16x512x64_S16x4096x64_1_1_2_2_0_0.rhsIdx i q 0).val = (i 0).val := by
  unfold DotDims.rhsIdx
  rw [dif_pos (show (0 : Fin S16x512x64.rank) ∈ dot_S16x512x4096_S16x512x64_S16x4096x64_1_1_2_2_0_0.rhsBatch by decide)]
  rfl
/-- The right operand's contracted coordinate is the contraction index. -/
theorem dotA_rhs1 (i : S16x4096x64.Idx) (q : dot_S16x512x4096_S16x512x64_S16x4096x64_1_1_2_2_0_0.contr.Idx) :
    (dot_S16x512x4096_S16x512x64_S16x4096x64_1_1_2_2_0_0.rhsIdx i q 1).val = (q ⟨0, by decide⟩).val :=
  dot_S16x512x4096_S16x512x64_S16x4096x64_1_1_2_2_0_0.rhsIdx_val_of_single rfl i q
/-- The right operand's free coordinate is the result's column. -/
theorem dotA_rhs2 (i : S16x4096x64.Idx) (q : dot_S16x512x4096_S16x512x64_S16x4096x64_1_1_2_2_0_0.contr.Idx) :
    (dot_S16x512x4096_S16x512x64_S16x4096x64_1_1_2_2_0_0.rhsIdx i q 2).val = (i 2).val := by
  unfold DotDims.rhsIdx
  rw [dif_neg (show ¬(2 : Fin S16x512x64.rank) ∈ dot_S16x512x4096_S16x512x64_S16x4096x64_1_1_2_2_0_0.rhsBatch by decide),
    dif_pos (show (2 : Fin S16x512x64.rank) ∈ dot_S16x512x4096_S16x512x64_S16x4096x64_1_1_2_2_0_0.rhsNonContracting by decide)]
  rfl

/-- The batched product at (t, n, k) is the sum over c of F0[t,c,n] * B[t,c,k]. -/
theorem dotA_apply (F0 : FVec Ideal S16x512x4096 .f32) (B : FVec Ideal S16x512x64 .f32) (t : Fin 16) (n : Fin 4096) (k : Fin 64) :
    Host.dotGeneral dot_S16x512x4096_S16x512x64_S16x4096x64_1_1_2_2_0_0 none F0 B (ix3 t n k)
      = ∑ c : Fin 512, F0 (ix3 t c n) * B (ix3 t c k) := by
  simp only [Host.dotGeneral]
  rw [Ideal.dotGeneral_apply, ← Equiv.sum_comp (contrEquiv1 dot_S16x512x4096_S16x512x64_S16x4096x64_1_1_2_2_0_0 512 rfl rfl).symm]
  refine Finset.sum_congr rfl fun c _ => ?_
  have hc := contrEquiv1_symm_val dot_S16x512x4096_S16x512x64_S16x4096x64_1_1_2_2_0_0 512 rfl rfl c
  have el : dot_S16x512x4096_S16x512x64_S16x4096x64_1_1_2_2_0_0.lhsIdx (ix3 t n k)
      ((contrEquiv1 dot_S16x512x4096_S16x512x64_S16x4096x64_1_1_2_2_0_0 512 rfl rfl).symm c) = ix3 t c n :=
    funext fun a => Fin.ext (by
      match a with
      | ⟨0, _⟩ => exact dotA_lhs0 _ _
      | ⟨1, _⟩ => exact (dotA_lhs1 _ _).trans hc
      | ⟨2, _⟩ => exact dotA_lhs2 _ _)
  have er : dot_S16x512x4096_S16x512x64_S16x4096x64_1_1_2_2_0_0.rhsIdx (ix3 t n k)
      ((contrEquiv1 dot_S16x512x4096_S16x512x64_S16x4096x64_1_1_2_2_0_0 512 rfl rfl).symm c) = ix3 t c k :=
    funext fun a => Fin.ext (by
      match a with
      | ⟨0, _⟩ => exact dotA_rhs0 _ _
      | ⟨1, _⟩ => exact (dotA_rhs1 _ _).trans hc
      | ⟨2, _⟩ => exact dotA_rhs2 _ _)
  rw [el, er]

/-- Slice t of the batched product is the scores of the two slices. -/
theorem rd3_dotA (F0 : FVec Ideal S16x512x4096 .f32) (B : FVec Ideal S16x512x64 .f32) (t : Fin 16) :
    rd3 (Host.dotGeneral dot_S16x512x4096_S16x512x64_S16x4096x64_1_1_2_2_0_0 none F0 B) t = scores (rd3 F0 t) (rd3 B t) := by
  funext n k
  exact dotA_apply F0 B t n k

/-! ## The softmax over the last axis at coordinates -/

/-- The reduced index (t, n) with coordinate k put back on the last axis is (t, n, k). -/
theorem lift_last (h : S16x4096x64.Reduces [2] S16x4096) (t : Fin 16) (n : Fin 4096) (k : Fin (S16x4096x64.size 2)) :
    h.lift (ix2 t n) k = ix3 t n (⟨k.val, k.isLt⟩ : Fin 64) := by
  funext c
  apply Fin.ext
  match c with
  | ⟨0, _⟩ => rfl
  | ⟨1, _⟩ => rfl
  | ⟨2, _⟩ => rfl

/-- A [16, 4096] array given a unit last axis and repeated along it reads, at (t, n, k), the array at (t, n). -/
theorem keepLast_apply (y : FVec Ideal S16x4096 .f32) (t : Fin 16) (n : Fin 4096) (k : Fin 64) :
    broadcastInDim S16x4096x64 ![0, 1, 2] bcast_S16x4096x1_S16x4096x64_0_1_2
      (broadcastInDim S16x4096x1 ![0, 1] bcast_S16x4096_S16x4096x1_0_1 y) (ix3 t n k) = y (ix2 t n) := by
  rw [broadcastInDim_apply _ bcast_S16x4096x1_S16x4096x64_0_1_2 _ (ix3 t n k) (ix3 t n (0 : Fin 1)) (fun a => match a with
    | ⟨0, _⟩ => by show t.val = if (16 : Nat) = 1 then 0 else t.val; rw [if_neg (by decide)]
    | ⟨1, _⟩ => by show n.val = if (4096 : Nat) = 1 then 0 else n.val; rw [if_neg (by decide)]
    | ⟨2, _⟩ => by show 0 = if (1 : Nat) = 1 then 0 else k.val; rw [if_pos rfl])]
  exact broadcastInDim_apply _ bcast_S16x4096_S16x4096x1_0_1 y (ix3 t n (0 : Fin 1)) (ix2 t n) (fun a => match a with
    | ⟨0, _⟩ => by show t.val = if (16 : Nat) = 1 then 0 else t.val; rw [if_neg (by decide)]
    | ⟨1, _⟩ => by show n.val = if (4096 : Nat) = 1 then 0 else n.val; rw [if_neg (by decide)])

/-- The row maximum the reference subtracts: the maximum of minus infinity and the fold of max from minus infinity
    over the row. -/
theorem refRowMax_apply (S : FVec Ideal S16x4096x64 .f32) (t : Fin 16) (n : Fin 4096) :
    (maximumf (broadcastInDim S16x4096 ![] bcast_S_S16x4096 (constant S_ .f32 0xFF800000#32 : FVec Ideal S_ .f32))
      (Host.reduce FloatOps.maximumf S (constant S_ .f32 0xFF800000#32 : FVec Ideal S_ .f32)
        reducesTo_S16x4096x64_S16x4096_d2 h_S_)) (ix2 t n) = rowMax (rd3 S t) n := by
  have h : S16x4096x64.Reduces [2] S16x4096 := by decide
  rw [maximumf_apply, broadcastInDim_apply _ bcast_S_S16x4096 _ (ix2 t n) ix0 (fun a => a.elim0),
    Host.reduce_eq_fold_single FloatOps.maximumf S _ reducesTo_S16x4096x64_S16x4096_d2 h h_S_]
  have hf : (S ∘ h.lift (ix2 t n)) = fun k : Fin 64 => S (ix3 t n k) := funext fun k => congrArg S (lift_last h t n k)
  exact congrArg (fun f => max ninf (Finset.fold max ninf f (Finset.univ : Finset (Fin 64)))) hf

/-- The exponentials at (t, n, k): the exponential of the entry minus its row's maximum. -/
theorem rExp_apply (S : FVec Ideal S16x4096x64 .f32) (t : Fin 16) (n : Fin 4096) (k : Fin 64) :
    rExp S (ix3 t n k) = rowExp (rd3 S t) n k := by
  unfold rExp
  show Ideal.exp (S (ix3 t n k) - _) = Ideal.exp (S (ix3 t n k) - rowMax (rd3 S t) n)
  rw [keepLast_apply, refRowMax_apply]

/-- The host's sum over the last axis from the constant 0, at (t, n): the sum of the row. -/
theorem refRowSum_apply (E : FVec Ideal S16x4096x64 .f32) (t : Fin 16) (n : Fin 4096) :
    Host.reduceAdd E (constant S_ .f32 0x00000000#32 : FVec Ideal S_ .f32) reducesTo_S16x4096x64_S16x4096_d2 h_S_ (ix2 t n)
      = ∑ k : Fin 64, E (ix3 t n k) := by
  have h : S16x4096x64.Reduces [2] S16x4096 := by decide
  simp only [Host.reduceAdd, Ideal.hostReduceAdd_def]
  rw [Ideal.hostReduceAdd_single reducesTo_S16x4096x64_S16x4096_d2 h, constant_apply, Ideal.ofBits_zero_f32, zero_add]
  exact Finset.sum_congr rfl fun k _ => congrArg E (lift_last h t n k)

/-- The softmax at (t, n, k). -/
theorem rSoftmax_apply (S : FVec Ideal S16x4096x64 .f32) (t : Fin 16) (n : Fin 4096) (k : Fin 64) :
    rSoftmax S (ix3 t n k) = softmaxRows (rd3 S t) n k := by
  unfold rSoftmax
  show Ideal.div (rExp S (ix3 t n k)) _ = Ideal.div (rowExp (rd3 S t) n k) (∑ k', rowExp (rd3 S t) n k')
  rw [keepLast_apply, refRowSum_apply, rExp_apply]
  exact congrArg _ (Finset.sum_congr rfl fun k' _ => rExp_apply S t n k')

/-- Slice t of the softmax is the row softmax of the slice. -/
theorem rd3_rSoftmax (S : FVec Ideal S16x4096x64 .f32) (t : Fin 16) : rd3 (rSoftmax S) t = softmaxRows (rd3 S t) := by
  funext n k
  exact rSoftmax_apply S t n k

/-! ## The attention -/

theorem rd3_rAttn (F0 : FVec Ideal S16x512x4096 .f32) (B : FVec Ideal S16x512x64 .f32) (t : Fin 16) : rd3 (rAttn F0 B) t = attn (rd3 F0 t) (rd3 B t) := by
  unfold rAttn attn
  rw [rd3_rSoftmax, rd3_dotA]

end Cert.ReferenceIdeal.Read

end
-- ==== Proof.Bridge.lean ====
/-
  The bridge between the two programs: on every batch element both compute `Cert.Spec.emRecon` — three EM iterations
  from the column-normalised basis, then the reconstruction from the last basis and the last attention — of that
  element's [512, 4096] feature matrix and the [512, 64] basis. The kernel does so block by block (one grid point per
  batch element, on the block with its unit axis dropped), the reference on slice t of its batched arrays; the readings
  of each group of operations (one file per group) turn both into the same mathematical expression, so the two
  [16, 512, 4096] arrays are equal index by index, and so are the results after the same final reshape.
-/
import proofs.«108734_j4166118277546_1_alg».proof.Proof.KerReadA
import proofs.«108734_j4166118277546_1_alg».proof.Proof.KerReadB
import proofs.«108734_j4166118277546_1_alg».proof.Proof.RefReadA
import proofs.«108734_j4166118277546_1_alg».proof.Proof.RefReadB
import proofs.«108734_j4166118277546_1_alg».proof.Proof.RefReadC
import Idealize.ShloMosaic.Lib.Pipeline.Value

noncomputable section

open Idealize.ShloMosaic Idealize.ShloMosaic.ValueIdx Cert.Spec

/-! ## Both programs compute `emRecon` on each batch element -/

namespace Cert.Bridge

open Cert.KernelIdeal.Read Cert.ReferenceIdeal.Read

/-- One iteration of the kernel is the mathematical iteration on the matrices read out of its vectors. -/
theorem rd2_kStage (f : FVec Ideal Cert.KernelIdeal.S512x4096 .bf16) (b : FVec Ideal Cert.KernelIdeal.S512x64 .f32) :
    rd2 (Cert.KernelIdeal.Stage.kStage f b) = stage (rd2 f) (rd2 b) := by
  unfold Cert.KernelIdeal.Stage.kStage stage
  rw [rd2_kNorm, rd2_kUpd, rd2_kAttn]

/-- One iteration of the reference, on slice `t`, is the mathematical iteration on the slices. -/
theorem rd3_rStage (F0 : FVec Ideal Cert.ReferenceIdeal.S16x512x4096 .f32) (B : FVec Ideal Cert.ReferenceIdeal.S16x512x64 .f32) (t : Fin 16) :
    rd3 (Cert.ReferenceIdeal.Stage.rStage F0 B) t = stage (rd3 F0 t) (rd3 B t) := by
  unfold Cert.ReferenceIdeal.Stage.rStage stage
  rw [rd3_rNorm16, rd3_rUpd, rd3_rAttn]

/-- A [1, 512, n] block with its unit axis dropped (and, for the features, narrowed to bf16, which changes nothing at the
    ideal values) is slice 0 of the block. -/
theorem rd2_kFeat (x0 : Vec Ideal Cert.KernelIdeal.S1x512x4096 .f32) :
    rd2 (Cert.KernelIdeal.Stage.kFeat x0) = rd3 x0 (0 : Fin 1) := by
  funext c n
  show shapeCast Cert.KernelIdeal.S512x4096 x0 _ (ix2 c n) = x0 (ix3 (0 : Fin 1) c n)
  refine shapeCast_apply x0 _ (ix2 c n) (ix3 (0 : Fin 1) c n) ?_
  rw [Shape.rowMajor_val_three, Shape.rowMajor_val_two]
  show ((0 : Fin 1).val * 512 + c.val) * 4096 + n.val = c.val * 4096 + n.val
  simp

theorem rd2_basis (x1 : Vec Ideal Cert.KernelIdeal.S1x512x64 .f32) :
    rd2 (shapeCast Cert.KernelIdeal.S512x64 x1 Cert.KernelIdeal.Gen.shapeCasts_S1x512x64_S512x64) = rd3 x1 (0 : Fin 1) := by
  funext c k
  show shapeCast Cert.KernelIdeal.S512x64 x1 _ (ix2 c k) = x1 (ix3 (0 : Fin 1) c k)
  refine shapeCast_apply x1 _ (ix2 c k) (ix3 (0 : Fin 1) c k) ?_
  rw [Shape.rowMajor_val_three, Shape.rowMajor_val_two]
  show ((0 : Fin 1).val * 512 + c.val) * 64 + k.val = c.val * 64 + k.val
  simp

/-- What one grid point stores, read at (0, c, n): the three iterations and the reconstruction on slice 0 of the two
    blocks it reads. -/
theorem kBlock_apply (x0 : Vec Ideal Cert.KernelIdeal.S1x512x4096 .f32) (x1 : Vec Ideal Cert.KernelIdeal.S1x512x64 .f32)
    (c : Fin 512) (n : Fin 4096) :
    Cert.KernelIdeal.Stage.kBlock x0 x1 (ix3 (0 : Fin 1) c n) = emRecon (rd3 x0 (0 : Fin 1)) (rd3 x1 (0 : Fin 1)) c n := by
  have h : Cert.KernelIdeal.Stage.kBlock x0 x1 (ix3 (0 : Fin 1) c n)
      = rd2 (Cert.KernelIdeal.Stage.kRecon (Cert.KernelIdeal.Stage.kStage (Cert.KernelIdeal.Stage.kFeat x0) (Cert.KernelIdeal.Stage.kB3 x0 x1))
          (Cert.KernelIdeal.Stage.kAttn (Cert.KernelIdeal.Stage.kFeat x0) (Cert.KernelIdeal.Stage.kB3 x0 x1))) c n := by
    unfold Cert.KernelIdeal.Stage.kBlock
    refine shapeCast_apply _ _ (ix3 (0 : Fin 1) c n) (ix2 c n) ?_
    rw [Shape.rowMajor_val_three, Shape.rowMajor_val_two]
    show c.val * 4096 + n.val = ((0 : Fin 1).val * 512 + c.val) * 4096 + n.val
    simp
  rw [h, rd2_kRecon, rd2_kStage, rd2_kAttn]
  unfold Cert.KernelIdeal.Stage.kB3
  rw [rd2_kStage, rd2_kStage, rd2_kNorm, rd2_kFeat, rd2_basis]
  rfl

/-- The reference's array before its last reshape, read at (t, c, n): the same on slice t of the merged features and
    slice 0 of the basis. -/
theorem rArr_apply (X : FVec Ideal Cert.ReferenceIdeal.S16x512x64x64 .f32) (Bs : FVec Ideal Cert.ReferenceIdeal.S1x512x64 .f32)
    (t : Fin 16) (c : Fin 512) (n : Fin 4096) :
    Cert.ReferenceIdeal.Stage.rArr X Bs (ix3 t c n) = emRecon (rd3 (Cert.ReferenceIdeal.Stage.rFeat X) t) (rd3 Bs (0 : Fin 1)) c n := by
  show rd3 (Cert.ReferenceIdeal.Stage.rArr X Bs) t c n = _
  unfold Cert.ReferenceIdeal.Stage.rArr Cert.ReferenceIdeal.Stage.rB3
  rw [rd3_rRecon, rd3_rStage, rd3_rAttn, rd3_rStage, rd3_rStage, rd3_rInit]
  rfl

/-- The two arrays are one. -/
theorem arr_eq (X : FVec Ideal Cert.ReferenceIdeal.S16x512x64x64 .f32) (Bs : FVec Ideal Cert.ReferenceIdeal.S1x512x64 .f32) :
    Cert.ReferenceIdeal.Stage.rArr X Bs = Cert.KernelIdeal.Stage.kArr (F := Ideal) (Cert.ReferenceIdeal.Stage.rFeat X) Bs := by
  funext i
  obtain ⟨t, c, n, rfl⟩ : ∃ (t : Fin 16) (c : Fin 512) (n : Fin 4096), i = ix3 t c n := ⟨i 0, i 1, i 2, eq_ix3 i⟩
  rw [rArr_apply]
  exact (kBlock_apply (fun y => Cert.ReferenceIdeal.Stage.rFeat X (ix3 t (y 1) (y 2))) Bs c n).symm

/-- The two programs' results are one function of the arguments. -/
theorem result_eq (X : FVec Ideal Cert.ReferenceIdeal.S16x512x64x64 .f32) (Bs : FVec Ideal Cert.ReferenceIdeal.S1x512x64 .f32) :
    Cert.ReferenceIdeal.Stage.rResult X Bs = Cert.KernelIdeal.Stage.kResult (F := Ideal) X Bs := by
  unfold Cert.ReferenceIdeal.Stage.rResult Cert.KernelIdeal.Stage.kResult
  rw [arr_eq]
  rfl

end Cert.Bridge

end
-- ==== Proof.lean ====
/-
  The proof of `Cert.Claim`. The kernel runs three EM iterations (attention = row softmax of f^T b; basis = column-wise
  l2 normalisation of f times the column-wise l1-normalised attention) and a final reconstruction b a^T on each of 16
  batch elements, one grid point each; the reference does the same on batched arrays with einsums. At the ideal values
  a change of float format is the identity and every sum is exact, so both results are the same function of the
  arguments (`Cert.Bridge.result_eq`): no law of the extended reals beyond the reading of each operation at an index is
  needed, and the precondition is never opened. The kernel's frames are the generated ones; the reference's frame is
  its run with the result dropped; the idealization rewrote nothing, so `preserves` is trivial.
-/
import proofs.«108734_j4166118277546_1_alg».proof.Defs
import proofs.«108734_j4166118277546_1_alg».proof.Proof.Gen.Kernel
import proofs.«108734_j4166118277546_1_alg».proof.Proof.Gen.Kernel.Skeleton
import proofs.«108734_j4166118277546_1_alg».proof.Proof.Gen.Kernel.Launch
import proofs.«108734_j4166118277546_1_alg».proof.Proof.Gen.Kernel.Points
import proofs.«108734_j4166118277546_1_alg».proof.Proof.Gen.Kernel.Frame
import proofs.«108734_j4166118277546_1_alg».proof.Proof.Gen.KernelIdeal
import proofs.«108734_j4166118277546_1_alg».proof.Proof.Gen.KernelIdeal.Skeleton
import proofs.«108734_j4166118277546_1_alg».proof.Proof.Gen.KernelIdeal.Launch
import proofs.«108734_j4166118277546_1_alg».proof.Proof.Gen.KernelIdeal.Points
import proofs.«108734_j4166118277546_1_alg».proof.Proof.Gen.KernelIdeal.Frame
import proofs.«108734_j4166118277546_1_alg».proof.Proof.Gen.ReferenceIdeal
import proofs.«108734_j4166118277546_1_alg».proof.Proof.Gen.Pre_finite_inputs
import proofs.«108734_j4166118277546_1_alg».proof.Proof.KerValue
import proofs.«108734_j4166118277546_1_alg».proof.Proof.RefRun
import proofs.«108734_j4166118277546_1_alg».proof.Proof.Bridge
import Idealize.ShloMosaic.Adequacy
import Idealize.ShloMosaic.Init

noncomputable section

namespace Cert.Proof

open Idealize.ShloMosaic Idealize.SL.Sem

/-- The word-level kernel's frame and the idealized kernel's: generated whole. -/
theorem frame_p : Cert.frame_Kernel := fun m ρ _ => Cert.Kernel.Gen.frame m ρ
theorem frame_pi : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both programs end with their result at one function of the (agreeing) arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.Bridge.result_eq _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
